-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1433 : Shape := ⟨2, ![50000, 1433]⟩
abbrev S2x800000 : Shape := ⟨2, ![2, 800000]⟩
abbrev S1433x256 : Shape := ⟨2, ![1433, 256]⟩
abbrev S256 : Shape := ⟨1, ![256]⟩
abbrev S256x7 : Shape := ⟨2, ![256, 7]⟩
abbrev S7 : Shape := ⟨1, ![7]⟩
abbrev S_ : Shape := ⟨0, ![]⟩

class Facts : Prop where
  bcast_S_S50000x1433 : S_.BroadcastsInDim S50000x1433 (![] : Fin 0 → Fin S50000x1433.rank)
  reducesTo_S50000x1433_S_d0_1 : S50000x1433.ReducesTo [0, 1] S_
  h_S_ : 0 < S_.numel
  bcast_S_S1433x256 : S_.BroadcastsInDim S1433x256 (![] : Fin 0 → Fin S1433x256.rank)
  reducesTo_S1433x256_S_d0_1 : S1433x256.ReducesTo [0, 1] S_
  bcast_S_S256 : S_.BroadcastsInDim S256 (![] : Fin 0 → Fin S256.rank)
  reducesTo_S256_S_d0 : S256.ReducesTo [0] S_
  bcast_S_S256x7 : S_.BroadcastsInDim S256x7 (![] : Fin 0 → Fin S256x7.rank)
  reducesTo_S256x7_S_d0_1 : S256x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S7 .f32) (main_v13 : IVec S_ 1) (main_v16 : IVec S256x7 1) : IVec S_ 1 :=
  let main_c_5 : IVec S_ 1 := constantI S_ 1 1#1
  let main_v17 : IVec S_ 1 := (fun x v => Host.reduce IntOp.andi x v reducesTo_S256x7_S_d0_1 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S50000x1433 .f32) (main_arg1 : IVec S2x800000 32) (main_arg2 : FVec F S1433x256 .f32) (main_arg3 : FVec F S256 .f32) (main_arg4 : FVec F S256x7 .f32) (main_arg5 : FVec F S7 .f32) : IVec S_ 1 :=
  let main_v0 : FVec F S50000x1433 .f32 := Host.absf main_arg0
  let main_cst : FVec F S_ .f32 := constant S_ .f32 0x7F800000#32
  let main_v1 : FVec F S50000x1433 .f32 := broadcastInDim S50000x1433 ![] bcast_S_S50000x1433 main_cst
  let main_v2 : IVec S50000x1433 1 := cmpf .olt main_v0 main_v1
  let main_c : IVec S_ 1 := constantI S_ 1 1#1
  let main_v3 : IVec S_ 1 := (fun x v => Host.reduce IntOp.andi x v reducesTo_S50000x1433_S_d0_1 h_S_) main_v2 main_c
  let main_v4 : FVec F S1433x256 .f32 := Host.absf main_arg2
  let main_cst_0 : FVec F S_ .f32 := constant S_ .f32 0x7F800000#32
  let main_v5 : FVec F S1433x256 .f32 := broadcastInDim S1433x256 ![] bcast_S_S1433x256 main_cst_0
  let main_v6 : IVec S1433x256 1 := cmpf .olt main_v4 main_v5
  let main_c_1 : IVec S_ 1 := constantI S_ 1 1#1
  let main_v7 : IVec S_ 1 := (fun x v => Host.reduce IntOp.andi x v reducesTo_S1433x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x7 .f32 := Host.absf main_arg4
  let main_cst_4 : FVec F S_ .f32 := constant S_ .f32 0x7F800000#32
  let main_v15 : FVec F S256x7 .f32 := broadcastInDim S256x7 ![] bcast_S_S256x7 main_cst_4
  let main_v16 : IVec S256x7 1 := cmpf .olt main_v14 main_v15
  fn_part1 (F := F) main_arg5 main_v13 main_v16
-- ==== Kernel.lean ====
abbrev S50000x1433 : Shape := ⟨2, ![50000, 1433]⟩
abbrev S2x800000 : Shape := ⟨2, ![2, 800000]⟩
abbrev S1433x256 : Shape := ⟨2, ![1433, 256]⟩
abbrev S256 : Shape := ⟨1, ![256]⟩
abbrev S256x7 : Shape := ⟨2, ![256, 7]⟩
abbrev S7 : Shape := ⟨1, ![7]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x256 : Shape := ⟨2, ![50000, 256]⟩
abbrev S1000x1433 : Shape := ⟨2, ![1000, 1433]⟩
abbrev S1000x256 : Shape := ⟨2, ![1000, 256]⟩
abbrev S800000x256 : Shape := ⟨2, ![800000, 256]⟩
abbrev S1x256 : Shape := ⟨2, ![1, 256]⟩
abbrev S2000x256 : Shape := ⟨2, ![2000, 256]⟩
abbrev S2000x1 : Shape := ⟨2, ![2000, 1]⟩
abbrev S50000x7 : Shape := ⟨2, ![50000, 7]⟩
abbrev S1000x7 : Shape := ⟨2, ![1000, 7]⟩
abbrev S800000x7 : Shape := ⟨2, ![800000, 7]⟩
abbrev S1x7 : Shape := ⟨2, ![1, 7]⟩
abbrev S2000x7 : Shape := ⟨2, ![2000, 7]⟩

abbrev nBuf : Space → Nat
  | .hbm => 79
  | .vmem => 28
  | .smem => 0
  | _ => 0

abbrev bufTy : (tb : Table) → Fin (tcTables nBuf tb) → BufTy
  | .hbm, ⟨0, _⟩ => ⟨S50000x1433, .f32⟩
  | .hbm, ⟨1, _⟩ => ⟨S2x800000, .i32⟩
  | .hbm, ⟨2, _⟩ => ⟨S1433x256, .f32⟩
  | .hbm, ⟨3, _⟩ => ⟨S256, .f32⟩
  | .hbm, ⟨4, _⟩ => ⟨S256x7, .f32⟩
  | .hbm, ⟨5, _⟩ => ⟨S7, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000, .f32⟩
  | .hbm, ⟨38, _⟩ => ⟨S800000, .f32⟩
  | .hbm, ⟨39, _⟩ => ⟨S50000, .f32⟩
  | .hbm, ⟨40, _⟩ => ⟨S50000x1, .f32⟩
  | .hbm, ⟨41, _⟩ => ⟨S50000x256, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x256, .f32⟩
  | .hbm, ⟨51, _⟩ => ⟨S800000x1, .f32⟩
  | .hbm, ⟨52, _⟩ => ⟨S800000x256, .f32⟩
  | .hbm, ⟨53, _⟩ => ⟨S800000x256, .f32⟩
  | .hbm, ⟨54, _⟩ => ⟨S_, .f32⟩
  | .hbm, ⟨55, _⟩ => ⟨S50000x256, .f32⟩
  | .hbm, ⟨56, _⟩ => ⟨S800000x1, .i32⟩
  | .hbm, ⟨57, _⟩ => ⟨S50000x256, .f32⟩
  | .hbm, ⟨58, _⟩ => ⟨S1x256, .f32⟩
  | .hbm, ⟨59, _⟩ => ⟨S50000x256, .f32⟩
  | .hbm, ⟨60, _⟩ => ⟨S50000x7, .f32⟩
  | .hbm, ⟨61, _⟩ => ⟨S_, .i32⟩
  | .hbm, ⟨62, _⟩ => ⟨S800000, .i32⟩
  | .hbm, ⟨63, _⟩ => ⟨S800000, .i1⟩
  | .hbm, ⟨64, _⟩ => ⟨S_, .i32⟩
  | .hbm, ⟨65, _⟩ => ⟨S800000, .i32⟩
  | .hbm, ⟨66, _⟩ => ⟨S800000, .i32⟩
  | .hbm, ⟨67, _⟩ => ⟨S800000, .i32⟩
  | .hbm, ⟨68, _⟩ => ⟨S800000x1, .i32⟩
  | .hbm, ⟨69, _⟩ => ⟨S800000x7, .f32⟩
  | .hbm, ⟨70, _⟩ => ⟨S800000x1, .f32⟩
  | .hbm, ⟨71, _⟩ => ⟨S800000x7, .f32⟩
  | .hbm, ⟨72, _⟩ => ⟨S800000x7, .f32⟩
  | .hbm, ⟨73, _⟩ => ⟨S_, .f32⟩
  | .hbm, ⟨74, _⟩ => ⟨S50000x7, .f32⟩
  | .hbm, ⟨75, _⟩ => ⟨S800000x1, .i32⟩
  | .hbm, ⟨76, _⟩ => ⟨S50000x7, .f32⟩
  | .hbm, ⟨77, _⟩ => ⟨S1x7, .f32⟩
  | .hbm, ⟨78, _⟩ => ⟨S50000x7, .f32⟩
  | .local _ .vmem, ⟨0, _⟩ => ⟨S1000x1433, .f32⟩
  | .local _ .vmem, ⟨1, _⟩ => ⟨S1000x1433, .f32⟩
  | .local _ .vmem, ⟨2, _⟩ => ⟨S1433x256, .f32⟩
  | .local _ .vmem, ⟨3, _⟩ => ⟨S1000x256, .f32⟩
  | .local _ .vmem, ⟨4, _⟩ => ⟨S1000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x1, .f32⟩
  | .local _ .vmem, ⟨10, _⟩ => ⟨S2000x1, .f32⟩
  | .local _ .vmem, ⟨11, _⟩ => ⟨S1x256, .f32⟩
  | .local _ .vmem, ⟨12, _⟩ => ⟨S2000x256, .f32⟩
  | .local _ .vmem, ⟨13, _⟩ => ⟨S2000x256, .f32⟩
  | .local _ .vmem, ⟨14, _⟩ => ⟨S1000x256, .f32⟩
  | .local _ .vmem, ⟨15, _⟩ => ⟨S1000x256, .f32⟩
  | .local _ .vmem, ⟨16, _⟩ => ⟨S256x7, .f32⟩
  | .local _ .vmem, ⟨17, _⟩ => ⟨S1000x7, .f32⟩
  | .local _ .vmem, ⟨18, _⟩ => ⟨S1000x7, .f32⟩
  | .local _ .vmem, ⟨19, _⟩ => ⟨S2000x7, .f32⟩
  | .local _ .vmem, ⟨20, _⟩ => ⟨S2000x7, .f32⟩
  | .local _ .vmem, ⟨21, _⟩ => ⟨S2000x7, .f32⟩
  | .local _ .vmem, ⟨22, _⟩ => ⟨S2000x7, .f32⟩
  | .local _ .vmem, ⟨23, _⟩ => ⟨S2000x1, .f32⟩
  | .local _ .vmem, ⟨24, _⟩ => ⟨S2000x1, .f32⟩
  | .local _ .vmem, ⟨25, _⟩ => ⟨S1x7, .f32⟩
  | .local _ .vmem, ⟨26, _⟩ => ⟨S2000x7, .f32⟩
  | .local _ .vmem, ⟨27, _⟩ => ⟨S2000x7, .f32⟩
  | _, _ => ⟨S50000x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1433 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1433x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x7 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x7 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x7 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x7 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x7 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x7 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  inb_S1000x1433_S1000x1433_0_0 : ∀ a, (![0, 0] : Fin 2 → Nat) a + S1000x1433.size a ≤ S1000x1433.size a
  h_S1000x1433 : 0 < S1000x1433.numel
  bitsLt_bf16_f32 : FTy.bits .bf16 < FTy.bits .f32
  inb_S1433x256_S1433x256_0_0 : ∀ a, (![0, 0] : Fin 2 → Nat) a + S1433x256.size a ≤ S1433x256.size a
  h_S1433x256 : 0 < S1433x256.numel
  inb_S1000x256_S1000x256_0_0 : ∀ a, (![0, 0] : Fin 2 → Nat) a + S1000x256.size a ≤ S1000x256.size a
  h_S1000x256 : 0 < S1000x256.numel
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  shapeCasts_S1000x256_S1000x256 : S1000x256.ShapeCasts S1000x256
  inb_S256x7_S256x7_0_0 : ∀ a, (![0, 0] : Fin 2 → Nat) a + S256x7.size a ≤ S256x7.size a
  h_S256x7 : 0 < S256x7.numel
  inb_S1000x7_S1000x7_0_0 : ∀ a, (![0, 0] : Fin 2 → Nat) a + S1000x7.size a ≤ S1000x7.size a
  h_S1000x7 : 0 < S1000x7.numel
  bcast_S800000x1_S800000x7_0_1 : S800000x1.BroadcastsInDim S800000x7 (![0, 1] : Fin 2 → Fin S800000x7.rank)
  bcast_S_S50000x7 : S_.BroadcastsInDim S50000x7 (![] : Fin 0 → Fin S50000x7.rank)
  shapeCasts_S7_S1x7 : S7.ShapeCasts S1x7
  inb_S2000x7_S2000x7_0_0 : ∀ a, (![0, 0] : Fin 2 → Nat) a + S2000x7.size a ≤ S2000x7.size a
  h_S2000x7 : 0 < S2000x7.numel
  shapeCasts_S2000x7_S2000x7 : S2000x7.ShapeCasts S2000x7
  broadcasts_S2000x1_S2000x7 : S2000x1.Broadcasts S2000x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S2000x7 : S1x7.Broadcasts S2000x7
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S1000x1433_S1433x256_S1000x256_1_0_0_1_n_n_wf : DotDims.WF S1000x1433 S1433x256 S1000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S1000x256_S256x7_S1000x7_1_0_0_1_n_n_wf : DotDims.WF S1000x256 S256x7 S1000x7 [1] [0] [0] [1] [] []
  gather_S50000x7_S800000x1_S800000x7_1_0_n_n_0_1_17_wf : GatherDims.WF S50000x7 S800000x1 S800000x7 [1] [0] [] [0] [] 1 ![1, 7]
  scatter_S50000x7_S800000x1_S800000x7_1_0_0_1_wf : ScatterDims.WF S50000x7 S800000x1 S800000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1433.size a ≤ S50000x1433.size a
  hwx0_0 : ∀ i : grid0.Coords, EltTy.bits .f32 = 32 ∨ (Rect.block (s := S50000x1433) S1000x1433.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1433x256.size a ≤ S1433x256.size a
  hwx0_1 : ∀ i : grid0.Coords, EltTy.bits .f32 = 32 ∨ (Rect.block (s := S1433x256) S1433x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x256.size a ≤ S50000x256.size a
  hwx0_2 : ∀ i : grid0.Coords, EltTy.bits .f32 = 32 ∨ (Rect.block (s := S50000x256) S1000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S50000x256.size a
  hwx1_4 : ∀ i : grid1.Coords, EltTy.bits .f32 = 32 ∨ (Rect.block (s := S50000x256) S2000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S50000x256.size a
  hwx2_0 : ∀ i : grid2.Coords, EltTy.bits .f32 = 32 ∨ (Rect.block (s := S50000x256) S1000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x7.size a ≤ S256x7.size a
  hwx2_1 : ∀ i : grid2.Coords, EltTy.bits .f32 = 32 ∨ (Rect.block (s := S256x7) S256x7.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x7.size a ≤ S50000x7.size a
  hwx2_2 : ∀ i : grid2.Coords, EltTy.bits .f32 = 32 ∨ (Rect.block (s := S50000x7) S1000x7.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x7.size a ≤ S50000x7.size a
  hwx3_0 : ∀ i : grid3.Coords, EltTy.bits .f32 = 32 ∨ (Rect.block (s := S50000x7) S2000x7.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x7.size a ≤ S50000x7.size a
  hwx3_1 : ∀ i : grid3.Coords, EltTy.bits .f32 = 32 ∨ (Rect.block (s := S50000x7) S2000x7.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x7.size a ≤ S1x7.size a
  hwx3_3 : ∀ i : grid3.Coords, EltTy.bits .f32 = 32 ∨ (Rect.block (s := S1x7) S1x7.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x7.size a ≤ S50000x7.size a
  hwx3_4 : ∀ i : grid3.Coords, EltTy.bits .f32 = 32 ∨ (Rect.block (s := S50000x7) S2000x7.size (cc3_transform_4 i) (hinb3_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S1000x1433_S1433x256_S1000x256_1_0_0_1_n_n : DotDims S1000x1433 S1433x256 S1000x256 where
  lhsContracting := [1]
  rhsContracting := [0]
  lhsNonContracting := [0]
  rhsNonContracting := [1]
  lhsBatch := []
  rhsBatch := []
  wf := dot_S1000x1433_S1433x256_S1000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S1000x256_S256x7_S1000x7_1_0_0_1_n_n : DotDims S1000x256 S256x7 S1000x7 where
  lhsContracting := [1]
  rhsContracting := [0]
  lhsNonContracting := [0]
  rhsNonContracting := [1]
  lhsBatch := []
  rhsBatch := []
  wf := dot_S1000x256_S256x7_S1000x7_1_0_0_1_n_n_wf
def gather_S50000x7_S800000x1_S800000x7_1_0_n_n_0_1_17 : GatherDims S50000x7 S800000x1 S800000x7 where
  offsetDims := [1]
  collapsedSliceDims := [0]
  operandBatchingDims := []
  startIndicesBatchingDims := []
  startIndexMap := [0]
  indexVectorDim := 1
  sliceSizes := ![1, 7]
  wf := gather_S50000x7_S800000x1_S800000x7_1_0_n_n_0_1_17_wf
def scatter_S50000x7_S800000x1_S800000x7_1_0_0_1 : ScatterDims S50000x7 S800000x1 S800000x7 where
  updateWindowDims := [1]
  insertedWindowDims := [0]
  scatterDimsToOperandDims := [0]
  indexVectorDim := 1
  wf := scatter_S50000x7_S800000x1_S800000x7_1_0_0_1_wf

abbrev win0_0 : Pipeline.Window sig grid0 :=
  Pipeline.Window.ofSpec (Memref.whole main_arg0) S1000x1433.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1433x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x7.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S1000x7.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S2000x7.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S2000x7.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x7.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S2000x7.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x1433 : Shape := ⟨2, ![50000, 1433]⟩
abbrev S2x800000 : Shape := ⟨2, ![2, 800000]⟩
abbrev S1433x256 : Shape := ⟨2, ![1433, 256]⟩
abbrev S256 : Shape := ⟨1, ![256]⟩
abbrev S256x7 : Shape := ⟨2, ![256, 7]⟩
abbrev S7 : Shape := ⟨1, ![7]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x256 : Shape := ⟨2, ![50000, 256]⟩
abbrev S800000x256 : Shape := ⟨2, ![800000, 256]⟩
abbrev S1x256 : Shape := ⟨2, ![1, 256]⟩
abbrev S50000x7 : Shape := ⟨2, ![50000, 7]⟩
abbrev S800000x7 : Shape := ⟨2, ![800000, 7]⟩
abbrev S1x7 : Shape := ⟨2, ![1, 7]⟩

abbrev nBuf : Space → Nat
  | .hbm => 90
  | .vmem => 0
  | .smem => 0
  | _ => 0

abbrev bufTy : (tb : Table) → Fin (tcTables nBuf tb) → BufTy
  | .hbm, ⟨0, _⟩ => ⟨S50000x1433, .f32⟩
  | .hbm, ⟨1, _⟩ => ⟨S2x800000, .i32⟩
  | .hbm, ⟨2, _⟩ => ⟨S1433x256, .f32⟩
  | .hbm, ⟨3, _⟩ => ⟨S256, .f32⟩
  | .hbm, ⟨4, _⟩ => ⟨S256x7, .f32⟩
  | .hbm, ⟨5, _⟩ => ⟨S7, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000, .f32⟩
  | .hbm, ⟨38, _⟩ => ⟨S800000, .f32⟩
  | .hbm, ⟨39, _⟩ => ⟨S50000, .f32⟩
  | .hbm, ⟨40, _⟩ => ⟨S50000x1, .f32⟩
  | .hbm, ⟨41, _⟩ => ⟨S50000x256, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x256, .f32⟩
  | .hbm, ⟨51, _⟩ => ⟨S800000x1, .f32⟩
  | .hbm, ⟨52, _⟩ => ⟨S800000x256, .f32⟩
  | .hbm, ⟨53, _⟩ => ⟨S800000x256, .f32⟩
  | .hbm, ⟨54, _⟩ => ⟨S_, .f32⟩
  | .hbm, ⟨55, _⟩ => ⟨S50000x256, .f32⟩
  | .hbm, ⟨56, _⟩ => ⟨S800000x1, .i32⟩
  | .hbm, ⟨57, _⟩ => ⟨S50000x256, .f32⟩
  | .hbm, ⟨58, _⟩ => ⟨S50000x256, .f32⟩
  | .hbm, ⟨59, _⟩ => ⟨S50000x256, .f32⟩
  | .hbm, ⟨60, _⟩ => ⟨S50000x256, .f32⟩
  | .hbm, ⟨61, _⟩ => ⟨S1x256, .f32⟩
  | .hbm, ⟨62, _⟩ => ⟨S50000x256, .f32⟩
  | .hbm, ⟨63, _⟩ => ⟨S50000x256, .f32⟩
  | .hbm, ⟨64, _⟩ => ⟨S_, .f32⟩
  | .hbm, ⟨65, _⟩ => ⟨S50000x256, .f32⟩
  | .hbm, ⟨66, _⟩ => ⟨S50000x256, .f32⟩
  | .hbm, ⟨67, _⟩ => ⟨S50000x7, .f32⟩
  | .hbm, ⟨68, _⟩ => ⟨S_, .i32⟩
  | .hbm, ⟨69, _⟩ => ⟨S800000, .i32⟩
  | .hbm, ⟨70, _⟩ => ⟨S800000, .i1⟩
  | .hbm, ⟨71, _⟩ => ⟨S_, .i32⟩
  | .hbm, ⟨72, _⟩ => ⟨S800000, .i32⟩
  | .hbm, ⟨73, _⟩ => ⟨S800000, .i32⟩
  | .hbm, ⟨74, _⟩ => ⟨S800000, .i32⟩
  | .hbm, ⟨75, _⟩ => ⟨S800000x1, .i32⟩
  | .hbm, ⟨76, _⟩ => ⟨S800000x7, .f32⟩
  | .hbm, ⟨77, _⟩ => ⟨S800000x1, .f32⟩
  | .hbm, ⟨78, _⟩ => ⟨S800000x7, .f32⟩
  | .hbm, ⟨79, _⟩ => ⟨S800000x7, .f32⟩
  | .hbm, ⟨80, _⟩ => ⟨S_, .f32⟩
  | .hbm, ⟨81, _⟩ => ⟨S50000x7, .f32⟩
  | .hbm, ⟨82, _⟩ => ⟨S800000x1, .i32⟩
  | .hbm, ⟨83, _⟩ => ⟨S50000x7, .f32⟩
  | .hbm, ⟨84, _⟩ => ⟨S50000x7, .f32⟩
  | .hbm, ⟨85, _⟩ => ⟨S50000x7, .f32⟩
  | .hbm, ⟨86, _⟩ => ⟨S50000x7, .f32⟩
  | .hbm, ⟨87, _⟩ => ⟨S1x7, .f32⟩
  | .hbm, ⟨88, _⟩ => ⟨S50000x7, .f32⟩
  | .hbm, ⟨89, _⟩ => ⟨S50000x7, .f32⟩
  | _, _ => ⟨S50000x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_c_8 : Ref sig .tc := ⟨.hbm, 68, rfl⟩
abbrev main_v50 : Ref sig .tc := ⟨.hbm, 69, rfl⟩
abbrev main_v51 : Ref sig .tc := ⟨.hbm, 70, rfl⟩
abbrev main_c_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_10 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S800000x1_S800000x7_0_1 : S800000x1.BroadcastsInDim S800000x7 (![0, 1] : Fin 2 → Fin S800000x7.rank)
  bcast_S_S50000x7 : S_.BroadcastsInDim S50000x7 (![] : Fin 0 → Fin S50000x7.rank)
  bcast_S50000x1_S50000x7_0_1 : S50000x1.BroadcastsInDim S50000x7 (![0, 1] : Fin 2 → Fin S50000x7.rank)
  bcast_S7_S1x7_1 : S7.BroadcastsInDim S1x7 (![1] : Fin 1 → Fin S1x7.rank)
  bcast_S1x7_S50000x7_0_1 : S1x7.BroadcastsInDim S50000x7 (![0, 1] : Fin 2 → Fin S50000x7.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x1433_S1433x256_S50000x256_1_0_0_1_n_n_wf : DotDims.WF S50000x1433 S1433x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x7_S50000x7_1_0_0_1_n_n_wf : DotDims.WF S50000x256 S256x7 S50000x7 [1] [0] [0] [1] [] []
  gather_S50000x7_S800000x1_S800000x7_1_0_n_n_0_1_17_wf : GatherDims.WF S50000x7 S800000x1 S800000x7 [1] [0] [] [0] [] 1 ![1, 7]
  scatter_S50000x7_S800000x1_S800000x7_1_0_0_1_wf : ScatterDims.WF S50000x7 S800000x1 S800000x7 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x1433_S1433x256_S50000x256_1_0_0_1_n_n : DotDims S50000x1433 S1433x256 S50000x256 where
  lhsContracting := [1]
  rhsContracting := [0]
  lhsNonContracting := [0]
  rhsNonContracting := [1]
  lhsBatch := []
  rhsBatch := []
  wf := dot_S50000x1433_S1433x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x7_S50000x7_1_0_0_1_n_n : DotDims S50000x256 S256x7 S50000x7 where
  lhsContracting := [1]
  rhsContracting := [0]
  lhsNonContracting := [0]
  rhsNonContracting := [1]
  lhsBatch := []
  rhsBatch := []
  wf := dot_S50000x256_S256x7_S50000x7_1_0_0_1_n_n_wf
def gather_S50000x7_S800000x1_S800000x7_1_0_n_n_0_1_17 : GatherDims S50000x7 S800000x1 S800000x7 where
  offsetDims := [1]
  collapsedSliceDims := [0]
  operandBatchingDims := []
  startIndicesBatchingDims := []
  startIndexMap := [0]
  indexVectorDim := 1
  sliceSizes := ![1, 7]
  wf := gather_S50000x7_S800000x1_S800000x7_1_0_n_n_0_1_17_wf
def scatter_S50000x7_S800000x1_S800000x7_1_0_0_1 : ScatterDims S50000x7 S800000x1 S800000x7 where
  updateWindowDims := [1]
  insertedWindowDims := [0]
  scatterDimsToOperandDims := [0]
  indexVectorDim := 1
  wf := scatter_S50000x7_S800000x1_S800000x7_1_0_0_1_wf

class Facts : Prop extends Facts₀ where

variable [Facts]
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.BodyAt.lean ====
/-
  The four kernel bodies' stored values, read at one entry.

  Bodies 0 and 2 store a matrix product into a zero accumulator; over the extended reals the narrowing of the operands
  to bf16 is the identity, so entry (p, q) of the stored block is the sum over the contracted axis of
  x[p, k] · w[k, q]. Bodies 1 and 3 store, entry by entry, (agg[p, q] + h[p, q] · s[p, 0]) + b[0, q] — the column s
  broadcast along the rows' entries, the row b broadcast down the rows — and body 1 then takes the maximum with zero.
  The sums are grouped exactly as written here: (agg + h·s) first, the bias added last.
-/
import proofs.«159464_j16063177687062_1_alg».proof.Proof.Gen.KernelIdeal.Skeleton
import proofs.«159464_j16063177687062_1_alg».proof.Proof.LibMatmulAt
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyAt

open Idealize.ShloMosaic Idealize.ShloMosaic.ValueIdx Cert.KernelIdeal Cert.KernelIdeal.Gen

/-! ## A column broadcast along each row -/

/-- An [a, 1] array broadcast to [a, b] reads, at (p, c), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Where the first product's dimension numbers read their operands: left at (row, k), right at (k, column) -/

theorem lhsA_0 (i : S1000x256.Idx) (q : dot_S1000x1433_S1433x256_S1000x256_1_0_0_1_n_n.contr.Idx) :
    (dot_S1000x1433_S1433x256_S1000x256_1_0_0_1_n_n.lhsIdx i q 0).val = (i 0).val := by
  unfold DotDims.lhsIdx
  rw [dif_neg (show ¬(0 : Fin S1000x1433.rank) ∈ dot_S1000x1433_S1433x256_S1000x256_1_0_0_1_n_n.lhsBatch by decide), dif_pos (show (0 : Fin S1000x1433.rank) ∈ dot_S1000x1433_S1433x256_S1000x256_1_0_0_1_n_n.lhsNonContracting by decide)]
  rfl
theorem lhsA_1 (i : S1000x256.Idx) (q : dot_S1000x1433_S1433x256_S1000x256_1_0_0_1_n_n.contr.Idx) :
    (dot_S1000x1433_S1433x256_S1000x256_1_0_0_1_n_n.lhsIdx i q 1).val = (q ⟨0, by decide⟩).val :=
  dot_S1000x1433_S1433x256_S1000x256_1_0_0_1_n_n.lhsIdx_val_of_single rfl i q
theorem rhsA_0 (i : S1000x256.Idx) (q : dot_S1000x1433_S1433x256_S1000x256_1_0_0_1_n_n.contr.Idx) :
    (dot_S1000x1433_S1433x256_S1000x256_1_0_0_1_n_n.rhsIdx i q 0).val = (q ⟨0, by decide⟩).val :=
  dot_S1000x1433_S1433x256_S1000x256_1_0_0_1_n_n.rhsIdx_val_of_single rfl i q
theorem rhsA_1 (i : S1000x256.Idx) (q : dot_S1000x1433_S1433x256_S1000x256_1_0_0_1_n_n.contr.Idx) :
    (dot_S1000x1433_S1433x256_S1000x256_1_0_0_1_n_n.rhsIdx i q 1).val = (i 1).val := by
  unfold DotDims.rhsIdx
  rw [dif_neg (show ¬(1 : Fin S1433x256.rank) ∈ dot_S1000x1433_S1433x256_S1000x256_1_0_0_1_n_n.rhsBatch by decide), dif_pos (show (1 : Fin S1433x256.rank) ∈ dot_S1000x1433_S1433x256_S1000x256_1_0_0_1_n_n.rhsNonContracting by decide)]
  rfl

/-- Body 0's stored block at (p, q): the sum over the 1433 contracted entries of x[p, k] · w[k, q]. -/
theorem mm_first_at (x : FVec Ideal S1000x1433 .f32) (w : FVec Ideal S1433x256 .f32) (p : Fin 1000) (q : Fin 256) :
    k0_pay1 (F := Ideal) x w (ix2 p q) = ∑ k : Fin 1433, x (ix2 p k) * w (ix2 k q) := by
  unfold k0_pay1
  exact MatmulAt.matmul_zero_at dot_S1000x1433_S1433x256_S1000x256_1_0_0_1_n_n rfl rfl lhsA_0 lhsA_1 rhsA_0 rhsA_1 none _ _ p q

/-! ## The second product's dimension numbers, the same way -/

theorem lhsB_0 (i : S1000x7.Idx) (q : dot_S1000x256_S256x7_S1000x7_1_0_0_1_n_n.contr.Idx) :
    (dot_S1000x256_S256x7_S1000x7_1_0_0_1_n_n.lhsIdx i q 0).val = (i 0).val := by
  unfold DotDims.lhsIdx
  rw [dif_neg (show ¬(0 : Fin S1000x256.rank) ∈ dot_S1000x256_S256x7_S1000x7_1_0_0_1_n_n.lhsBatch by decide), dif_pos (show (0 : Fin S1000x256.rank) ∈ dot_S1000x256_S256x7_S1000x7_1_0_0_1_n_n.lhsNonContracting by decide)]
  rfl
theorem lhsB_1 (i : S1000x7.Idx) (q : dot_S1000x256_S256x7_S1000x7_1_0_0_1_n_n.contr.Idx) :
    (dot_S1000x256_S256x7_S1000x7_1_0_0_1_n_n.lhsIdx i q 1).val = (q ⟨0, by decide⟩).val :=
  dot_S1000x256_S256x7_S1000x7_1_0_0_1_n_n.lhsIdx_val_of_single rfl i q
theorem rhsB_0 (i : S1000x7.Idx) (q : dot_S1000x256_S256x7_S1000x7_1_0_0_1_n_n.contr.Idx) :
    (dot_S1000x256_S256x7_S1000x7_1_0_0_1_n_n.rhsIdx i q 0).val = (q ⟨0, by decide⟩).val :=
  dot_S1000x256_S256x7_S1000x7_1_0_0_1_n_n.rhsIdx_val_of_single rfl i q
theorem rhsB_1 (i : S1000x7.Idx) (q : dot_S1000x256_S256x7_S1000x7_1_0_0_1_n_n.contr.Idx) :
    (dot_S1000x256_S256x7_S1000x7_1_0_0_1_n_n.rhsIdx i q 1).val = (i 1).val := by
  unfold DotDims.rhsIdx
  rw [dif_neg (show ¬(1 : Fin S256x7.rank) ∈ dot_S1000x256_S256x7_S1000x7_1_0_0_1_n_n.rhsBatch by decide), dif_pos (show (1 : Fin S256x7.rank) ∈ dot_S1000x256_S256x7_S1000x7_1_0_0_1_n_n.rhsNonContracting by decide)]
  rfl

/-- Body 2's stored block at (p, q): the sum over the 256 contracted entries of x[p, k] · w[k, q]. -/
theorem mm_second_at (x : FVec Ideal S1000x256 .f32) (w : FVec Ideal S256x7 .f32) (p : Fin 1000) (q : Fin 7) :
    k2_pay1 (F := Ideal) x w (ix2 p q) = ∑ k : Fin 256, x (ix2 p k) * w (ix2 k q) := by
  unfold k2_pay1
  rw [shapeCast_self]
  exact MatmulAt.matmul_zero_at dot_S1000x256_S256x7_S1000x7_1_0_0_1_n_n rfl rfl lhsB_0 lhsB_1 rhsB_0 rhsB_1 none _ _ p q

/-! ## The two combining bodies -/

variable {F : FTy → Type} [FloatOps F]

/-- Body 1's stored block at (p, q): max((agg[p, q] + h[p, q] · s[p, 0]) + b[0, q], 0). -/
theorem combine_relu_at (agg h : FVec F S2000x256 .f32) (s : FVec F S2000x1 .f32) (b : FVec F S1x256 .f32)
    (p : Fin 2000) (q : Fin 256) :
    k1_pay1 (F := F) agg h s b (ix2 p q)
      = FloatOps.maximumf (FloatOps.addf (FloatOps.addf (agg (ix2 p q)) (FloatOps.mulf (h (ix2 p q)) (s (ix2 p (0 : Fin 1)))))
          (b (ix2 (0 : Fin 1) q))) (FloatOps.ofBits .f32 0x00000000#32) := by
  unfold k1_pay1
  simp only [shapeCast_self]
  show FloatOps.maximumf (FloatOps.addf (FloatOps.addf (agg (ix2 p q)) (FloatOps.mulf (h (ix2 p q))
      (broadcastTo S2000x256 s broadcasts_S2000x1_S2000x256 (ix2 p q))))
      (broadcastTo S2000x256 b broadcasts_S1x256_S2000x256 (ix2 p q))) _ = _
  rw [broadcastTo_a1_ab_apply, broadcastTo_1b_ab_apply]
  rfl

/-- Body 3's stored block at (p, q): (agg[p, q] + h[p, q] · s[p, 0]) + b[0, q]. -/
theorem combine_at (agg h : FVec F S2000x7 .f32) (s : FVec F S2000x1 .f32) (b : FVec F S1x7 .f32)
    (p : Fin 2000) (q : Fin 7) :
    k3_pay1 (F := F) agg h s b (ix2 p q)
      = FloatOps.addf (FloatOps.addf (agg (ix2 p q)) (FloatOps.mulf (h (ix2 p q)) (s (ix2 p (0 : Fin 1)))))
          (b (ix2 (0 : Fin 1) q)) := by
  unfold k3_pay1
  simp only [shapeCast_self]
  show FloatOps.addf (FloatOps.addf (agg (ix2 p q)) (FloatOps.mulf (h (ix2 p q))
      (broadcastTo S2000x7 s broadcasts_S2000x1_S2000x7 (ix2 p q))))
      (broadcastTo S2000x7 b broadcasts_S1x7_S2000x7 (ix2 p q)) = _
  rw [broadcastTo_a1_ab_apply, broadcastTo_1b_ab_apply]

end Cert.KernelIdeal.BodyAt

end
-- ==== Proof.ProductFirst.lean ====
/-
  What the first product region leaves in its output array, as one function of the arrays it finds.

  The region walks 50 blocks of 1000 rows. At block t it reads rows 1000·t … 1000·t + 999 of the left operand, all
  1433 columns of them, and the right operand whole, and writes the same rows of the output: their product into a zero
  accumulator. The contracted axis lies whole inside every block, so over the extended reals entry (r, c) of the output
  array ends at the full sum over k of x[r, k] · w[k, c], whichever block holds row r; the 50 blocks cover all
  50000 rows.
-/
import proofs.«159464_j16063177687062_1_alg».proof.Proof.Gen.KernelIdeal.Frame
import proofs.«159464_j16063177687062_1_alg».proof.Proof.BodyAt

set_option maxRecDepth 16384

noncomputable section

namespace Cert.KernelIdeal.ProductFirst

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- Entry (r, k) of the left operand, for an output entry in row r. -/
abbrev leftAt (i : S50000x256.Idx) (k : Fin 1433) : S50000x1433.Idx := fun a => match a with
  | ⟨0, _⟩ => ⟨(i 0).val, (i 0).isLt⟩
  | ⟨1, _⟩ => ⟨k.val, k.isLt⟩
/-- Entry (k, c) of the right operand, for an output entry in column c. -/
abbrev rightAt (i : S50000x256.Idx) (k : Fin 1433) : S1433x256.Idx := fun a => match a with
  | ⟨0, _⟩ => ⟨k.val, k.isLt⟩
  | ⟨1, _⟩ => ⟨(i 1).val, (i 1).isLt⟩

/-- The whole output array from the two whole operands: the matrix product, entry by entry. -/
def whole (x : (⟨S50000x1433, .f32⟩ : BufTy).Contents (Elt Ideal)) (w : (⟨S1433x256, .f32⟩ : BufTy).Contents (Elt Ideal)) :
    (⟨S50000x256, .f32⟩ : BufTy).Contents (Elt Ideal) :=
  fun i => ∑ k : Fin 1433, x (leftAt i k) * w (rightAt i k)

/-- Block t of the left operand and of the output is block row t, column block 0; the right operand is one block. -/
theorem blocks : ∀ t : Fin cfg0.N,
      win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-! ## The blocks and the arrays, named at their literal types (so that their entries multiply as extended reals) -/

/-- The left operand's block at point t. -/
abbrev leftBlk (c : Dev nD) (t : Fin cfg0.N) : FVec Ideal S1000x1433 .f32 := iblk0 V c 0 t
/-- The right operand's one block, at any point. -/
abbrev rightBlk (c : Dev nD) (t : Fin cfg0.N) : FVec Ideal S1433x256 .f32 := iblk0 V c 1 t
/-- The left operand's array as the region finds it. -/
abbrev leftArr (c : Dev nD) : (⟨S50000x1433, .f32⟩ : BufTy).Contents (Elt Ideal) := V c (Pipeline.arrRef spec0 0)
/-- The right operand's array as the region finds it. -/
abbrev rightArr (c : Dev nD) : (⟨S1433x256, .f32⟩ : BufTy).Contents (Elt Ideal) := V c (Pipeline.arrRef spec0 1)

/-! ## Each operand block read where the output block's entry sits in the array -/

theorem read_left (c : Dev nD) (t : Fin cfg0.N) (p : Fin 1000) (q : Fin 256) (k : Fin 1433) :
    leftBlk V c t (ix2 p k) = leftArr V c (leftAt (((cfg0.win 2).blk t).view.emb (ix2 p q)) k) := by
  obtain ⟨a0, a1, -, -, o0, o1⟩ := blocks t
  show V c (Pipeline.arrRef spec0 0) (((cfg0.win 0).blk t).view.emb (ix2 p k)) = _
  refine congrArg (V c (Pipeline.arrRef spec0 0)) (funext fun a => Fin.ext ?_)
  match a with
  | ⟨0, _⟩ => show win0_0.index t (0 : Fin 2) * 1000 + 1 * p.val = win0_2.index t (0 : Fin 2) * 1000 + 1 * p.val; omega
  | ⟨1, _⟩ => show win0_0.index t (1 : Fin 2) * 1433 + 1 * k.val = k.val; omega

theorem read_right (c : Dev nD) (t : Fin cfg0.N) (p : Fin 1000) (q : Fin 256) (k : Fin 1433) :
    rightBlk V c t (ix2 k q) = rightArr V c (rightAt (((cfg0.win 2).blk t).view.emb (ix2 p q)) k) := by
  obtain ⟨-, -, b0, b1, o0, o1⟩ := blocks t
  show V c (Pipeline.arrRef spec0 1) (((cfg0.win 1).blk t).view.emb (ix2 k q)) = _
  refine congrArg (V c (Pipeline.arrRef spec0 1)) (funext fun a => Fin.ext ?_)
  match a with
  | ⟨0, _⟩ => show win0_1.index t (0 : Fin 2) * 1433 + 1 * k.val = k.val; omega
  | ⟨1, _⟩ => show win0_1.index t (1 : Fin 2) * 256 + 1 * q.val = win0_2.index t (1 : Fin 2) * 256 + 1 * q.val; omega

/-- What point t writes back is block t of `whole` of the arrays as the region finds them. -/
theorem flushed_eq (c : Dev nD) (t : Fin cfg0.N) :
    (dat0 V c).flushed 2 t = ((cfg0.win 2).blk t).view.read (Elt Ideal)
      (whole (V c (Pipeline.arrRef spec0 0)) (V c (Pipeline.arrRef spec0 1))) := by
  show (cfg0.win 2).cut (grid0.coords t) ((dat0 V c).after 2 t) = _
  rw [after0_2]
  unfold out0_2
  rw [View.canon_unit_zero origin]
  simp only [View.ld_unit_zero (S := S1000x1433) origin, View.ld_unit_zero (S := S1433x256) origin]
  funext j
  show k0_pay1 (iblk0 V c 0 t) (iblk0 V c 1 t) j
      = whole (V c (Pipeline.arrRef spec0 0)) (V c (Pipeline.arrRef spec0 1)) (((cfg0.win 2).blk t).view.emb j)
  obtain ⟨p, q, rfl⟩ : ∃ (p : Fin 1000) (q : Fin 256), j = ix2 p q := ⟨j 0, j 1, eq_ix2 j⟩
  refine (BodyAt.mm_first_at (iblk0 V c 0 t) (iblk0 V c 1 t) p q).trans ?_
  show (∑ k : Fin 1433, leftBlk V c t (ix2 p k) * rightBlk V c t (ix2 k q))
      = ∑ k : Fin 1433, leftArr V c (leftAt (((cfg0.win 2).blk t).view.emb (ix2 p q)) k)
          * rightArr V c (rightAt (((cfg0.win 2).blk t).view.emb (ix2 p q)) k)
  refine Finset.sum_congr rfl fun k _ => ?_
  rw [read_left V c t p q k, read_right V c t p q k]

/-! ## The 50 blocks cover the array: row r sits in block r / 1000 -/

theorem mem_blk (t : Fin cfg0.N) (i : S50000x256.Idx) :
    i ∈ ((cfg0.win 2).blk t).view.set ↔ ∀ a : Fin 2, win0_2.index t a * S1000x256.size a ≤ (i a).val
      ∧ (i a).val < win0_2.index t a * S1000x256.size a + S1000x256.size a := by
  show i ∈ ((View.whole main_v28).slice (win0_2.rect t)).set ↔ _
  rw [View.set_slice_whole, Rect.mem_set_unit]
  exact Iff.rfl

theorem cover (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 50 := N_0
  have ht : (i 0).val / 1000 < cfg0.N := by rw [hN]; omega
  refine ⟨⟨(i 0).val / 1000, ht⟩, flush0_2 _, ?_⟩
  obtain ⟨-, -, -, -, o0, o1⟩ := blocks ⟨(i 0).val / 1000, ht⟩
  rw [mem_blk]
  intro a
  match a with
  | ⟨0, _⟩ =>
    show win0_2.index ⟨(i 0).val / 1000, ht⟩ (0 : Fin 2) * 1000 ≤ (i 0).val
      ∧ (i 0).val < win0_2.index ⟨(i 0).val / 1000, ht⟩ (0 : Fin 2) * 1000 + 1000
    rw [o0]
    show (i 0).val / 1000 * 1000 ≤ (i 0).val ∧ (i 0).val < (i 0).val / 1000 * 1000 + 1000
    omega
  | ⟨1, _⟩ =>
    show win0_2.index ⟨(i 0).val / 1000, ht⟩ (1 : Fin 2) * 256 ≤ (i 1).val
      ∧ (i 1).val < win0_2.index ⟨(i 0).val / 1000, ht⟩ (1 : Fin 2) * 256 + 256
    rw [o1]
    omega

/-- The array after the region: `whole` of the arrays as the region finds them. -/
theorem final (c : Dev nD) :
    (dat0 V c).arrAt 2 cfg0.N = whole (V c (Pipeline.arrRef spec0 0)) (V c (Pipeline.arrRef spec0 1)) :=
  (dat0 V c).arrAt_eq_of_cover 2 _ (fun t _ => flushed_eq V c t) cover

end Cert.KernelIdeal.ProductFirst

end
-- ==== Proof.Boundary0.lean ====
/-
  The kernel program's buffers at its first boundaries, as the reference's stages of the same arguments.

  Before the first region the host computes, from the edge list alone, the sources and targets, the edge weights
  norm = dinv[row] · dinv[col] and the self-loop weights' column dinv · dinv, with dinv = rsqrt(deg) and deg the count
  of edges into a node plus one: the very operations the reference applies, in the same order, so each of these
  buffers holds the reference's stage of the edge list. The first region then leaves x · W1 in its output array:
  the reference's product, entry by entry the same sum over the contracted axis.
-/
import proofs.«159464_j16063177687062_1_alg».proof.Proof.Gen.KernelIdeal.Frame
import proofs.«159464_j16063177687062_1_alg».proof.Proof.Gen.ReferenceIdeal.Read
import proofs.«159464_j16063177687062_1_alg».proof.Proof.ProductFirst
import Idealize.ShloMosaic.Lib.StableHlo.Run

set_option maxRecDepth 16384

noncomputable section

namespace Cert.KernelIdeal.Boundary

open Idealize.ShloMosaic Idealize.ShloMosaic.TcCoe Idealize.ShloMosaic.ValueIdx Idealize.SL.Sem Idealize.ShloMosaic.StableHlo
open Cert.KernelIdeal Cert.KernelIdeal.Gen

/-- A host stretch leaves a buffer none of its operations writes as it found it. -/
macro "untouched_by " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

variable (m : (ℓ : Loc nD τ sig) → Buf (Elt Ideal) ℓ) (ρ : Dev nD → PrngReg)

/-! ## The six arguments as launched -/

abbrev x0 (c : Dev nD) : (⟨S50000x1433, .f32⟩ : BufTy).Contents (Elt Ideal) := m ((c.tc : Thread nD τ).loc main_arg0)
abbrev x1 (c : Dev nD) : (⟨S2x800000, .i32⟩ : BufTy).Contents (Elt Ideal) := m ((c.tc : Thread nD τ).loc main_arg1)
abbrev x2 (c : Dev nD) : (⟨S1433x256, .f32⟩ : BufTy).Contents (Elt Ideal) := m ((c.tc : Thread nD τ).loc main_arg2)
abbrev x3 (c : Dev nD) : (⟨S256, .f32⟩ : BufTy).Contents (Elt Ideal) := m ((c.tc : Thread nD τ).loc main_arg3)
abbrev x4 (c : Dev nD) : (⟨S256x7, .f32⟩ : BufTy).Contents (Elt Ideal) := m ((c.tc : Thread nD τ).loc main_arg4)
abbrev x5 (c : Dev nD) : (⟨S7, .f32⟩ : BufTy).Contents (Elt Ideal) := m ((c.tc : Thread nD τ).loc main_arg5)

/-! ## After the first host stretch -/

theorem W1_arg0 (c : Dev nD) : W1 m ρ c (Proc.devRef .tc main_arg0) = x0 m c := by
  show StableHlo.after hostOps0 (W0 m ρ c) (Proc.devRef .tc main_arg0) = W0 m ρ c (Proc.devRef .tc main_arg0)
  untouched_by hostOps0
theorem W1_arg1 (c : Dev nD) : W1 m ρ c (Proc.devRef .tc main_arg1) = x1 m c := by
  show StableHlo.after hostOps0 (W0 m ρ c) (Proc.devRef .tc main_arg1) = W0 m ρ c (Proc.devRef .tc main_arg1)
  untouched_by hostOps0
theorem W1_arg2 (c : Dev nD) : W1 m ρ c (Proc.devRef .tc main_arg2) = x2 m c := by
  show StableHlo.after hostOps0 (W0 m ρ c) (Proc.devRef .tc main_arg2) = W0 m ρ c (Proc.devRef .tc main_arg2)
  untouched_by hostOps0
theorem W1_arg3 (c : Dev nD) : W1 m ρ c (Proc.devRef .tc main_arg3) = x3 m c := by
  show StableHlo.after hostOps0 (W0 m ρ c) (Proc.devRef .tc main_arg3) = W0 m ρ c (Proc.devRef .tc main_arg3)
  untouched_by hostOps0
theorem W1_arg4 (c : Dev nD) : W1 m ρ c (Proc.devRef .tc main_arg4) = x4 m c := by
  show StableHlo.after hostOps0 (W0 m ρ c) (Proc.devRef .tc main_arg4) = W0 m ρ c (Proc.devRef .tc main_arg4)
  untouched_by hostOps0
theorem W1_arg5 (c : Dev nD) : W1 m ρ c (Proc.devRef .tc main_arg5) = x5 m c := by
  show StableHlo.after hostOps0 (W0 m ρ c) (Proc.devRef .tc main_arg5) = W0 m ρ c (Proc.devRef .tc main_arg5)
  untouched_by hostOps0

/-- The edges' sources. -/
theorem W1_v1 (c : Dev nD) : W1 m ρ c (Proc.devRef .tc main_v1) = Cert.ReferenceIdeal.Read.val_main_v1 (F := Ideal) (x1 m c) := by
  show StableHlo.after hostOps0 (W0 m ρ c) (Proc.devRef .tc main_v1) = _
  after_results
  rfl
/-- The edges' targets. -/
theorem W1_v3 (c : Dev nD) : W1 m ρ c (Proc.devRef .tc main_v3) = Cert.ReferenceIdeal.Read.val_main_v3 (F := Ideal) (x1 m c) := by
  show StableHlo.after hostOps0 (W0 m ρ c) (Proc.devRef .tc main_v3) = _
  after_results
  rfl
set_option maxHeartbeats 4000000 in
/-- The edge weights dinv[row] · dinv[col]. -/
theorem W1_v25 (c : Dev nD) : W1 m ρ c (Proc.devRef .tc main_v25) = Cert.ReferenceIdeal.Read.val_main_v25 (F := Ideal) (x1 m c) := by
  show StableHlo.after hostOps0 (W0 m ρ c) (Proc.devRef .tc main_v25) = _
  after_results_simp
  rfl
/-- The self-loop weights' column dinv · dinv. -/
theorem W1_v27 (c : Dev nD) : W1 m ρ c (Proc.devRef .tc main_v27) = Cert.ReferenceIdeal.Read.val_main_v27 (F := Ideal) (x1 m c) := by
  show StableHlo.after hostOps0 (W0 m ρ c) (Proc.devRef .tc main_v27) = _
  after_results
  rfl

/-! ## After the first region: everything but its output as before it, the output the product x · W1 -/

theorem W2_v1 (c : Dev nD) : W2 m ρ c (Proc.devRef .tc main_v1) = Cert.ReferenceIdeal.Read.val_main_v1 (F := Ideal) (x1 m c) :=
  (W2_of_ne m ρ c main_v1 (by decide)).trans (W1_v1 m ρ c)
theorem W2_v3 (c : Dev nD) : W2 m ρ c (Proc.devRef .tc main_v3) = Cert.ReferenceIdeal.Read.val_main_v3 (F := Ideal) (x1 m c) :=
  (W2_of_ne m ρ c main_v3 (by decide)).trans (W1_v3 m ρ c)
theorem W2_v25 (c : Dev nD) : W2 m ρ c (Proc.devRef .tc main_v25) = Cert.ReferenceIdeal.Read.val_main_v25 (F := Ideal) (x1 m c) :=
  (W2_of_ne m ρ c main_v25 (by decide)).trans (W1_v25 m ρ c)
theorem W2_v27 (c : Dev nD) : W2 m ρ c (Proc.devRef .tc main_v27) = Cert.ReferenceIdeal.Read.val_main_v27 (F := Ideal) (x1 m c) :=
  (W2_of_ne m ρ c main_v27 (by decide)).trans (W1_v27 m ρ c)
theorem W2_arg3 (c : Dev nD) : W2 m ρ c (Proc.devRef .tc main_arg3) = x3 m c :=
  (W2_of_ne m ρ c main_arg3 (by decide)).trans (W1_arg3 m ρ c)
theorem W2_arg4 (c : Dev nD) : W2 m ρ c (Proc.devRef .tc main_arg4) = x4 m c :=
  (W2_of_ne m ρ c main_arg4 (by decide)).trans (W1_arg4 m ρ c)
theorem W2_arg5 (c : Dev nD) : W2 m ρ c (Proc.devRef .tc main_arg5) = x5 m c :=
  (W2_of_ne m ρ c main_arg5 (by decide)).trans (W1_arg5 m ρ c)

/-- The first region's output is the reference's product x · W1: entry by entry the same sum over the 1433 contracted
    entries, the operands the launched arguments on both sides. -/
theorem W2_v28 (c : Dev nD) :
    W2 m ρ c (Proc.devRef .tc main_v28) = Cert.ReferenceIdeal.Read.val_main_v28 (F := Ideal) (x0 m c) (x2 m c) := by
  refine (W2_arr m ρ c 2).trans ?_
  rw [ProductFirst.final]
  have e0 : V1 m ρ c (Pipeline.arrRef spec0 0) = x0 m c := W1_arg0 m ρ c
  have e1 : V1 m ρ c (Pipeline.arrRef spec0 1) = x2 m c := W1_arg2 m ρ c
  rw [e0, e1]
  funext i
  rw [Cert.ReferenceIdeal.Read.val_main_v28_apply]
  rfl

end Cert.KernelIdeal.Boundary

end
-- ==== Proof.CombineRelu.lean ====
/-
  What the first combining region leaves in its output array, as one function of the arrays it finds.

  The region walks 25 blocks of 2000 rows. At block t it reads rows 2000·t … 2000·t + 1999 of the aggregate, of the
  transformed features and of the self-loop weights' column, and the one bias row whole, and writes the same rows of
  the output. So entry (r, c) of the output array ends at
      max((agg[r, c] + h[r, c] · s[r, 0]) + b[0, c], 0),
  whichever block holds row r; the 25 blocks cover all 50000 rows.
-/
import proofs.«159464_j16063177687062_1_alg».proof.Proof.Gen.KernelIdeal.Frame
import proofs.«159464_j16063177687062_1_alg».proof.Proof.BodyAt

set_option maxRecDepth 16384

noncomputable section

namespace Cert.KernelIdeal.CombineRelu

open Idealize.ShloMosaic Idealize.ShloMosaic.TcCoe Idealize.ShloMosaic.ValueIdx Idealize.SL.Sem
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

theorem origin : (![0, 0] : Fin 2 → Nat) = fun _ => 0 := funext fun a => by fin_cases a <;> rfl

/-- Row r of the weights' column, for an entry in row r of the wide array. -/
abbrev rowOf (i : S50000x256.Idx) : S50000x1.Idx := fun a => match a with
  | ⟨0, _⟩ => ⟨(i 0).val, (i 0).isLt⟩
  | ⟨1, _⟩ => ⟨0, Nat.one_pos⟩
/-- Column c of the bias row, for an entry in column c of the wide array. -/
abbrev colOf (i : S50000x256.Idx) : S1x256.Idx := fun a => match a with
  | ⟨0, _⟩ => ⟨0, Nat.one_pos⟩
  | ⟨1, _⟩ => ⟨(i 1).val, (i 1).isLt⟩

/-- The whole output array from the four whole input arrays. -/
def whole (agg h : S50000x256.Idx → Elt F .f32) (s : S50000x1.Idx → Elt F .f32) (b : S1x256.Idx → Elt F .f32) :
    S50000x256.Idx → Elt F .f32 :=
  fun i => FloatOps.maximumf (FloatOps.addf (FloatOps.addf (agg i) (FloatOps.mulf (h i) (s (rowOf i)))) (b (colOf i)))
    (FloatOps.ofBits .f32 0x00000000#32)

/-- Block t of every row-blocked window is block row t, column block 0; the bias window stays at its one block. -/
theorem blocks : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-! ## Each input block read where the output block's entry sits in the array -/

theorem read_agg (c : Dev nD) (t : Fin cfg1.N) (p : Fin 2000) (q : Fin 256) :
    iblk1 V c 0 t (ix2 p q) = V c (Pipeline.arrRef spec1 0) (((cfg1.win 4).blk t).view.emb (ix2 p q)) := by
  obtain ⟨a0, a1, -, -, -, -, -, -, o0, o1⟩ := blocks t
  show V c (Pipeline.arrRef spec1 0) (((cfg1.win 0).blk t).view.emb (ix2 p q)) = _
  refine congrArg (V c (Pipeline.arrRef spec1 0)) (funext fun a => Fin.ext ?_)
  match a with
  | ⟨0, _⟩ => show win1_0.index t (0 : Fin 2) * 2000 + 1 * p.val = win1_4.index t (0 : Fin 2) * 2000 + 1 * p.val; omega
  | ⟨1, _⟩ => show win1_0.index t (1 : Fin 2) * 256 + 1 * q.val = win1_4.index t (1 : Fin 2) * 256 + 1 * q.val; omega

theorem read_h (c : Dev nD) (t : Fin cfg1.N) (p : Fin 2000) (q : Fin 256) :
    iblk1 V c 1 t (ix2 p q) = V c (Pipeline.arrRef spec1 1) (((cfg1.win 4).blk t).view.emb (ix2 p q)) := by
  obtain ⟨-, -, b0, b1, -, -, -, -, o0, o1⟩ := blocks t
  show V c (Pipeline.arrRef spec1 1) (((cfg1.win 1).blk t).view.emb (ix2 p q)) = _
  refine congrArg (V c (Pipeline.arrRef spec1 1)) (funext fun a => Fin.ext ?_)
  match a with
  | ⟨0, _⟩ => show win1_1.index t (0 : Fin 2) * 2000 + 1 * p.val = win1_4.index t (0 : Fin 2) * 2000 + 1 * p.val; omega
  | ⟨1, _⟩ => show win1_1.index t (1 : Fin 2) * 256 + 1 * q.val = win1_4.index t (1 : Fin 2) * 256 + 1 * q.val; omega

theorem read_s (c : Dev nD) (t : Fin cfg1.N) (p : Fin 2000) (q : Fin 256) :
    iblk1 V c 2 t (ix2 p (0 : Fin 1))
      = V c (Pipeline.arrRef spec1 2) (rowOf (((cfg1.win 4).blk t).view.emb (ix2 p q))) := by
  obtain ⟨-, -, -, -, s0, s1, -, -, o0, o1⟩ := blocks t
  show V c (Pipeline.arrRef spec1 2) (((cfg1.win 2).blk t).view.emb (ix2 p (0 : Fin 1))) = _
  refine congrArg (V c (Pipeline.arrRef spec1 2)) (funext fun a => Fin.ext ?_)
  match a with
  | ⟨0, _⟩ => show win1_2.index t (0 : Fin 2) * 2000 + 1 * p.val = win1_4.index t (0 : Fin 2) * 2000 + 1 * p.val; omega
  | ⟨1, _⟩ => show win1_2.index t (1 : Fin 2) * 1 + 1 * 0 = 0; omega

theorem read_b (c : Dev nD) (t : Fin cfg1.N) (p : Fin 2000) (q : Fin 256) :
    iblk1 V c 3 t (ix2 (0 : Fin 1) q)
      = V c (Pipeline.arrRef spec1 3) (colOf (((cfg1.win 4).blk t).view.emb (ix2 p q))) := by
  obtain ⟨-, -, -, -, -, -, r0, r1, o0, o1⟩ := blocks t
  show V c (Pipeline.arrRef spec1 3) (((cfg1.win 3).blk t).view.emb (ix2 (0 : Fin 1) q)) = _
  refine congrArg (V c (Pipeline.arrRef spec1 3)) (funext fun a => Fin.ext ?_)
  match a with
  | ⟨0, _⟩ => show win1_3.index t (0 : Fin 2) * 1 + 1 * 0 = 0; omega
  | ⟨1, _⟩ => show win1_3.index t (1 : Fin 2) * 256 + 1 * q.val = win1_4.index t (1 : Fin 2) * 256 + 1 * q.val; omega

/-- What point t writes back is block t of `whole` of the arrays as the region finds them. -/
theorem flushed_eq (c : Dev nD) (t : Fin cfg1.N) :
    (dat1 V c).flushed 4 t = ((cfg1.win 4).blk t).view.read (Elt F)
      (whole (V c (Pipeline.arrRef spec1 0)) (V c (Pipeline.arrRef spec1 1)) (V c (Pipeline.arrRef spec1 2)) (V c (Pipeline.arrRef spec1 3))) := by
  show (cfg1.win 4).cut (grid1.coords t) ((dat1 V c).after 4 t) = _
  rw [after1_4]
  unfold out1_4
  rw [View.canon_unit_zero origin]
  simp only [View.ld_unit_zero (S := S2000x256) origin, View.ld_unit_zero (S := S2000x1) origin, View.ld_unit_zero (S := S1x256) origin]
  funext j
  show k1_pay1 (iblk1 V c 0 t) (iblk1 V c 1 t) (iblk1 V c 2 t) (iblk1 V c 3 t) j
      = whole (V c (Pipeline.arrRef spec1 0)) (V c (Pipeline.arrRef spec1 1)) (V c (Pipeline.arrRef spec1 2)) (V c (Pipeline.arrRef spec1 3))
          (((cfg1.win 4).blk t).view.emb j)
  obtain ⟨p, q, rfl⟩ : ∃ (p : Fin 2000) (q : Fin 256), j = ix2 p q := ⟨j 0, j 1, eq_ix2 j⟩
  refine (BodyAt.combine_relu_at (iblk1 V c 0 t) (iblk1 V c 1 t) (iblk1 V c 2 t) (iblk1 V c 3 t) p q).trans ?_
  rw [read_agg V c t p q, read_h V c t p q, read_s V c t p q, read_b V c t p q]
  rfl

/-! ## The 25 blocks cover the array: row r sits in block r / 2000 -/

theorem mem_blk (t : Fin cfg1.N) (i : S50000x256.Idx) :
    i ∈ ((cfg1.win 4).blk t).view.set ↔ ∀ a : Fin 2, win1_4.index t a * S2000x256.size a ≤ (i a).val
      ∧ (i a).val < win1_4.index t a * S2000x256.size a + S2000x256.size a := by
  show i ∈ ((View.whole main_v43).slice (win1_4.rect t)).set ↔ _
  rw [View.set_slice_whole, Rect.mem_set_unit]
  exact Iff.rfl

theorem cover (i : S50000x256.Idx) :
    ∃ t : Fin cfg1.N, (cfg1.win 4).flush t = true ∧ i ∈ ((cfg1.win 4).blk t).view.set := by
  have hi0 : (i 0).val < 50000 := (i 0).isLt
  have hi1 : (i 1).val < 256 := (i 1).isLt
  have hN : cfg1.N = 25 := N_1
  have ht : (i 0).val / 2000 < cfg1.N := by rw [hN]; omega
  refine ⟨⟨(i 0).val / 2000, ht⟩, flush1_4 _, ?_⟩
  obtain ⟨-, -, -, -, -, -, -, -, o0, o1⟩ := blocks ⟨(i 0).val / 2000, ht⟩
  rw [mem_blk]
  intro a
  match a with
  | ⟨0, _⟩ =>
    show win1_4.index ⟨(i 0).val / 2000, ht⟩ (0 : Fin 2) * 2000 ≤ (i 0).val
      ∧ (i 0).val < win1_4.index ⟨(i 0).val / 2000, ht⟩ (0 : Fin 2) * 2000 + 2000
    rw [o0]
    show (i 0).val / 2000 * 2000 ≤ (i 0).val ∧ (i 0).val < (i 0).val / 2000 * 2000 + 2000
    omega
  | ⟨1, _⟩ =>
    show win1_4.index ⟨(i 0).val / 2000, ht⟩ (1 : Fin 2) * 256 ≤ (i 1).val
      ∧ (i 1).val < win1_4.index ⟨(i 0).val / 2000, ht⟩ (1 : Fin 2) * 256 + 256
    rw [o1]
    omega

/-- The array after the region: `whole` of the arrays as the region finds them. -/
theorem final (c : Dev nD) :
    (dat1 V c).arrAt 4 cfg1.N
      = whole (V c (Pipeline.arrRef spec1 0)) (V c (Pipeline.arrRef spec1 1)) (V c (Pipeline.arrRef spec1 2)) (V c (Pipeline.arrRef spec1 3)) :=
  (dat1 V c).arrAt_eq_of_cover 4 _ (fun t _ => flushed_eq V c t) cover

end Cert.KernelIdeal.CombineRelu

end
-- ==== Proof.Boundary1.lean ====
/-
  The kernel program's buffers around its second region, as the reference's stages of the same arguments.

  Between the first two regions the host gathers the rows of x · W1 at the edges' sources, scales each by its edge
  weight and adds them up at the edges' targets: the reference's first aggregate, operation for operation. The second
  region then leaves max((agg + h · s) + b1, 0) in its output array, which is the reference's activation entry by
  entry: the same sums in the same grouping; the bias row is the reference's b1 read at the entry's column, whether
  it was laid out as one row by a reshape or by a broadcast.
-/
import proofs.«159464_j16063177687062_1_alg».proof.Proof.Boundary0
import proofs.«159464_j16063177687062_1_alg».proof.Proof.CombineRelu
import Idealize.ShloMosaic.Lib.Pipeline.Value

set_option maxRecDepth 16384

noncomputable section

namespace Cert.KernelIdeal.Boundary

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-! ## After the second host stretch -/

set_option maxHeartbeats 4000000 in
/-- The first aggregate: the rows of x · W1 gathered at the sources, weighted, summed at the targets. -/
theorem W3_v41 (c : Dev nD) :
    W3 m ρ c (Proc.devRef .tc main_v41) = Cert.ReferenceIdeal.Read.val_main_v41 (F := Ideal) (x0 m c) (x1 m c) (x2 m c) := by
  show StableHlo.after hostOps1 (W2 m ρ c) (Proc.devRef .tc main_v41) = _
  after_results_simp
  rw [W2_v1, W2_v3, W2_v25, W2_v28]
  rfl

theorem W3_v28 (c : Dev nD) :
    W3 m ρ c (Proc.devRef .tc main_v28) = Cert.ReferenceIdeal.Read.val_main_v28 (F := Ideal) (x0 m c) (x2 m c) := by
  refine Eq.trans ?_ (W2_v28 m ρ c)
  show StableHlo.after hostOps1 (W2 m ρ c) (Proc.devRef .tc main_v28) = W2 m ρ c (Proc.devRef .tc main_v28)
  untouched_by hostOps1
theorem W3_v27 (c : Dev nD) : W3 m ρ c (Proc.devRef .tc main_v27) = Cert.ReferenceIdeal.Read.val_main_v27 (F := Ideal) (x1 m c) := by
  refine Eq.trans ?_ (W2_v27 m ρ c)
  show StableHlo.after hostOps1 (W2 m ρ c) (Proc.devRef .tc main_v27) = W2 m ρ c (Proc.devRef .tc main_v27)
  untouched_by hostOps1
theorem W3_v1 (c : Dev nD) : W3 m ρ c (Proc.devRef .tc main_v1) = Cert.ReferenceIdeal.Read.val_main_v1 (F := Ideal) (x1 m c) := by
  refine Eq.trans ?_ (W2_v1 m ρ c)
  show StableHlo.after hostOps1 (W2 m ρ c) (Proc.devRef .tc main_v1) = W2 m ρ c (Proc.devRef .tc main_v1)
  untouched_by hostOps1
theorem W3_v3 (c : Dev nD) : W3 m ρ c (Proc.devRef .tc main_v3) = Cert.ReferenceIdeal.Read.val_main_v3 (F := Ideal) (x1 m c) := by
  refine Eq.trans ?_ (W2_v3 m ρ c)
  show StableHlo.after hostOps1 (W2 m ρ c) (Proc.devRef .tc main_v3) = W2 m ρ c (Proc.devRef .tc main_v3)
  untouched_by hostOps1
theorem W3_v25 (c : Dev nD) : W3 m ρ c (Proc.devRef .tc main_v25) = Cert.ReferenceIdeal.Read.val_main_v25 (F := Ideal) (x1 m c) := by
  refine Eq.trans ?_ (W2_v25 m ρ c)
  show StableHlo.after hostOps1 (W2 m ρ c) (Proc.devRef .tc main_v25) = W2 m ρ c (Proc.devRef .tc main_v25)
  untouched_by hostOps1
theorem W3_arg4 (c : Dev nD) : W3 m ρ c (Proc.devRef .tc main_arg4) = x4 m c := by
  refine Eq.trans ?_ (W2_arg4 m ρ c)
  show StableHlo.after hostOps1 (W2 m ρ c) (Proc.devRef .tc main_arg4) = W2 m ρ c (Proc.devRef .tc main_arg4)
  untouched_by hostOps1
theorem W3_arg5 (c : Dev nD) : W3 m ρ c (Proc.devRef .tc main_arg5) = x5 m c := by
  refine Eq.trans ?_ (W2_arg5 m ρ c)
  show StableHlo.after hostOps1 (W2 m ρ c) (Proc.devRef .tc main_arg5) = W2 m ρ c (Proc.devRef .tc main_arg5)
  untouched_by hostOps1

/-- The first bias laid out as one row. -/
theorem W3_v42 (c : Dev nD) :
    W3 m ρ c (Proc.devRef .tc main_v42) = shapeCast S1x256 (x3 m c) shapeCasts_S256_S1x256 := by
  show StableHlo.after hostOps1 (W2 m ρ c) (Proc.devRef .tc main_v42) = _
  after_results
  rw [W2_arg3]
  rfl

/-- The bias row read at an entry's column is the bias at that column. -/
theorem bias_first_at (b : (⟨S256, .f32⟩ : BufTy).Contents (Elt Ideal)) (i : S50000x256.Idx) :
    shapeCast S1x256 b shapeCasts_S256_S1x256 (CombineRelu.colOf i)
      = b (Cert.ReferenceIdeal.Read.idx_main_v45 (Cert.ReferenceIdeal.Read.idx_main_v46 i)) := by
  refine shapeCast_apply b shapeCasts_S256_S1x256 _ _ ?_
  rw [Shape.rowMajor_val_one, Shape.rowMajor_val_two]
  show (i 1).val = 0 * 256 + (i 1).val
  omega

/-! ## After the second region -/

/-- The second region's output is the reference's activation max((agg + h · s) + b1, 0). -/
theorem W4_v43 (c : Dev nD) :
    W4 m ρ c (Proc.devRef .tc main_v43) = Cert.ReferenceIdeal.Read.val_main_v48 (F := Ideal) (x0 m c) (x1 m c) (x2 m c) (x3 m c) := by
  refine (W4_arr m ρ c 4).trans ?_
  rw [CombineRelu.final]
  have e0 : V3 m ρ c (Pipeline.arrRef spec1 0) = Cert.ReferenceIdeal.Read.val_main_v41 (F := Ideal) (x0 m c) (x1 m c) (x2 m c) := W3_v41 m ρ c
  have e1 : V3 m ρ c (Pipeline.arrRef spec1 1) = Cert.ReferenceIdeal.Read.val_main_v28 (F := Ideal) (x0 m c) (x2 m c) := W3_v28 m ρ c
  have e2 : V3 m ρ c (Pipeline.arrRef spec1 2) = Cert.ReferenceIdeal.Read.val_main_v27 (F := Ideal) (x1 m c) := W3_v27 m ρ c
  have e3 : V3 m ρ c (Pipeline.arrRef spec1 3) = shapeCast S1x256 (x3 m c) shapeCasts_S256_S1x256 := W3_v42 m ρ c
  rw [e0, e1, e2, e3]
  funext i
  rw [Cert.ReferenceIdeal.Read.val_main_v48_apply, Cert.ReferenceIdeal.Read.val_main_v47_apply, Cert.ReferenceIdeal.Read.val_main_v44_apply, Cert.ReferenceIdeal.Read.val_main_v43_apply,
    Cert.ReferenceIdeal.Read.val_main_v42_apply, Cert.ReferenceIdeal.Read.val_main_v46_apply, Cert.ReferenceIdeal.Read.val_main_v45_apply, Cert.ReferenceIdeal.Read.val_main_call0_v0_apply,
    Cert.ReferenceIdeal.Read.val_main_call0_cst_apply]
  unfold CombineRelu.whole
  rw [bias_first_at]
  rfl

theorem W4_arg4 (c : Dev nD) : W4 m ρ c (Proc.devRef .tc main_arg4) = x4 m c :=
  (W4_of_ne m ρ c main_arg4 (by decide)).trans (W3_arg4 m ρ c)
theorem W4_arg5 (c : Dev nD) : W4 m ρ c (Proc.devRef .tc main_arg5) = x5 m c :=
  (W4_of_ne m ρ c main_arg5 (by decide)).trans (W3_arg5 m ρ c)
theorem W4_v1 (c : Dev nD) : W4 m ρ c (Proc.devRef .tc main_v1) = Cert.ReferenceIdeal.Read.val_main_v1 (F := Ideal) (x1 m c) :=
  (W4_of_ne m ρ c main_v1 (by decide)).trans (W3_v1 m ρ c)
theorem W4_v3 (c : Dev nD) : W4 m ρ c (Proc.devRef .tc main_v3) = Cert.ReferenceIdeal.Read.val_main_v3 (F := Ideal) (x1 m c) :=
  (W4_of_ne m ρ c main_v3 (by decide)).trans (W3_v3 m ρ c)
theorem W4_v25 (c : Dev nD) : W4 m ρ c (Proc.devRef .tc main_v25) = Cert.ReferenceIdeal.Read.val_main_v25 (F := Ideal) (x1 m c) :=
  (W4_of_ne m ρ c main_v25 (by decide)).trans (W3_v25 m ρ c)
/-- The self-loop weights' column is one of the second region's input arrays: the region leaves an input as it found it. -/
theorem W4_v27 (c : Dev nD) : W4 m ρ c (Proc.devRef .tc main_v27) = Cert.ReferenceIdeal.Read.val_main_v27 (F := Ideal) (x1 m c) :=
  ((W4_arr m ρ c 2).trans (((dat1 (V3 m ρ) c).arrAt_in 2 rfl _).trans (A_eq1 (V3 m ρ) c 2))).trans (W3_v27 m ρ c)

end Cert.KernelIdeal.Boundary

end
-- ==== Proof.ProductSecond.lean ====
/-
  What the second product region leaves in its output array, as one function of the arrays it finds.

  The region walks 50 blocks of 1000 rows. At block t it reads rows 1000·t … 1000·t + 999 of the left operand, all
  256 columns of them, and the right operand whole, and writes the same rows of the width-7 output: their product
  into a zero accumulator. The contracted axis lies whole inside every block, so over the extended reals entry (r, c)
  of the output array ends at the full sum over k of x[r, k] · w[k, c], whichever block holds row r; the 50 blocks
  cover all 50000 rows.
-/
import proofs.«159464_j16063177687062_1_alg».proof.Proof.Gen.KernelIdeal.Frame
import proofs.«159464_j16063177687062_1_alg».proof.Proof.BodyAt

set_option maxRecDepth 16384

noncomputable section

namespace Cert.KernelIdeal.ProductSecond

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- Entry (r, k) of the left operand, for an output entry in row r. -/
abbrev leftAt (i : S50000x7.Idx) (k : Fin 256) : S50000x256.Idx := fun a => match a with
  | ⟨0, _⟩ => ⟨(i 0).val, (i 0).isLt⟩
  | ⟨1, _⟩ => ⟨k.val, k.isLt⟩
/-- Entry (k, c) of the right operand, for an output entry in column c. -/
abbrev rightAt (i : S50000x7.Idx) (k : Fin 256) : S256x7.Idx := fun a => match a with
  | ⟨0, _⟩ => ⟨k.val, k.isLt⟩
  | ⟨1, _⟩ => ⟨(i 1).val, (i 1).isLt⟩

/-- The whole output array from the two whole operands: the matrix product, entry by entry. -/
def whole (x : (⟨S50000x256, .f32⟩ : BufTy).Contents (Elt Ideal)) (w : (⟨S256x7, .f32⟩ : BufTy).Contents (Elt Ideal)) :
    (⟨S50000x7, .f32⟩ : BufTy).Contents (Elt Ideal) :=
  fun i => ∑ k : Fin 256, x (leftAt i k) * w (rightAt i k)

/-- Block t of the left operand and of the output is block row t, column block 0; the right operand is one block. -/
theorem blocks : ∀ t : Fin cfg2.N,
      win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-! ## The blocks and the arrays, named at their literal types (so that their entries multiply as extended reals) -/

/-- The left operand's block at point t. -/
abbrev leftBlk (c : Dev nD) (t : Fin cfg2.N) : FVec Ideal S1000x256 .f32 := iblk2 V c 0 t
/-- The right operand's one block, at any point. -/
abbrev rightBlk (c : Dev nD) (t : Fin cfg2.N) : FVec Ideal S256x7 .f32 := iblk2 V c 1 t
/-- The left operand's array as the region finds it. -/
abbrev leftArr (c : Dev nD) : (⟨S50000x256, .f32⟩ : BufTy).Contents (Elt Ideal) := V c (Pipeline.arrRef spec2 0)
/-- The right operand's array as the region finds it. -/
abbrev rightArr (c : Dev nD) : (⟨S256x7, .f32⟩ : BufTy).Contents (Elt Ideal) := V c (Pipeline.arrRef spec2 1)

/-! ## Each operand block read where the output block's entry sits in the array -/

theorem read_left (c : Dev nD) (t : Fin cfg2.N) (p : Fin 1000) (q : Fin 7) (k : Fin 256) :
    leftBlk V c t (ix2 p k) = leftArr V c (leftAt (((cfg2.win 2).blk t).view.emb (ix2 p q)) k) := by
  obtain ⟨a0, a1, -, -, o0, o1⟩ := blocks t
  show V c (Pipeline.arrRef spec2 0) (((cfg2.win 0).blk t).view.emb (ix2 p k)) = _
  refine congrArg (V c (Pipeline.arrRef spec2 0)) (funext fun a => Fin.ext ?_)
  match a with
  | ⟨0, _⟩ => show win2_0.index t (0 : Fin 2) * 1000 + 1 * p.val = win2_2.index t (0 : Fin 2) * 1000 + 1 * p.val; omega
  | ⟨1, _⟩ => show win2_0.index t (1 : Fin 2) * 256 + 1 * k.val = k.val; omega

theorem read_right (c : Dev nD) (t : Fin cfg2.N) (p : Fin 1000) (q : Fin 7) (k : Fin 256) :
    rightBlk V c t (ix2 k q) = rightArr V c (rightAt (((cfg2.win 2).blk t).view.emb (ix2 p q)) k) := by
  obtain ⟨-, -, b0, b1, o0, o1⟩ := blocks t
  show V c (Pipeline.arrRef spec2 1) (((cfg2.win 1).blk t).view.emb (ix2 k q)) = _
  refine congrArg (V c (Pipeline.arrRef spec2 1)) (funext fun a => Fin.ext ?_)
  match a with
  | ⟨0, _⟩ => show win2_1.index t (0 : Fin 2) * 256 + 1 * k.val = k.val; omega
  | ⟨1, _⟩ => show win2_1.index t (1 : Fin 2) * 7 + 1 * q.val = win2_2.index t (1 : Fin 2) * 7 + 1 * q.val; omega

/-- What point t writes back is block t of `whole` of the arrays as the region finds them. -/
theorem flushed_eq (c : Dev nD) (t : Fin cfg2.N) :
    (dat2 V c).flushed 2 t = ((cfg2.win 2).blk t).view.read (Elt Ideal)
      (whole (V c (Pipeline.arrRef spec2 0)) (V c (Pipeline.arrRef spec2 1))) := by
  show (cfg2.win 2).cut (grid2.coords t) ((dat2 V c).after 2 t) = _
  rw [after2_2]
  unfold out2_2
  rw [View.canon_unit_zero origin]
  simp only [View.ld_unit_zero (S := S1000x256) origin, View.ld_unit_zero (S := S256x7) origin]
  funext j
  show k2_pay1 (iblk2 V c 0 t) (iblk2 V c 1 t) j
      = whole (V c (Pipeline.arrRef spec2 0)) (V c (Pipeline.arrRef spec2 1)) (((cfg2.win 2).blk t).view.emb j)
  obtain ⟨p, q, rfl⟩ : ∃ (p : Fin 1000) (q : Fin 7), j = ix2 p q := ⟨j 0, j 1, eq_ix2 j⟩
  refine (BodyAt.mm_second_at (iblk2 V c 0 t) (iblk2 V c 1 t) p q).trans ?_
  show (∑ k : Fin 256, leftBlk V c t (ix2 p k) * rightBlk V c t (ix2 k q))
      = ∑ k : Fin 256, leftArr V c (leftAt (((cfg2.win 2).blk t).view.emb (ix2 p q)) k)
          * rightArr V c (rightAt (((cfg2.win 2).blk t).view.emb (ix2 p q)) k)
  refine Finset.sum_congr rfl fun k _ => ?_
  rw [read_left V c t p q k, read_right V c t p q k]

/-! ## The 50 blocks cover the array: row r sits in block r / 1000 -/

theorem mem_blk (t : Fin cfg2.N) (i : S50000x7.Idx) :
    i ∈ ((cfg2.win 2).blk t).view.set ↔ ∀ a : Fin 2, win2_2.index t a * S1000x7.size a ≤ (i a).val
      ∧ (i a).val < win2_2.index t a * S1000x7.size a + S1000x7.size a := by
  show i ∈ ((View.whole main_v44).slice (win2_2.rect t)).set ↔ _
  rw [View.set_slice_whole, Rect.mem_set_unit]
  exact Iff.rfl

theorem cover (i : S50000x7.Idx) :
    ∃ t : Fin cfg2.N, (cfg2.win 2).flush t = true ∧ i ∈ ((cfg2.win 2).blk t).view.set := by
  have hi0 : (i 0).val < 50000 := (i 0).isLt
  have hi1 : (i 1).val < 7 := (i 1).isLt
  have hN : cfg2.N = 50 := N_2
  have ht : (i 0).val / 1000 < cfg2.N := by rw [hN]; omega
  refine ⟨⟨(i 0).val / 1000, ht⟩, flush2_2 _, ?_⟩
  obtain ⟨-, -, -, -, o0, o1⟩ := blocks ⟨(i 0).val / 1000, ht⟩
  rw [mem_blk]
  intro a
  match a with
  | ⟨0, _⟩ =>
    show win2_2.index ⟨(i 0).val / 1000, ht⟩ (0 : Fin 2) * 1000 ≤ (i 0).val
      ∧ (i 0).val < win2_2.index ⟨(i 0).val / 1000, ht⟩ (0 : Fin 2) * 1000 + 1000
    rw [o0]
    show (i 0).val / 1000 * 1000 ≤ (i 0).val ∧ (i 0).val < (i 0).val / 1000 * 1000 + 1000
    omega
  | ⟨1, _⟩ =>
    show win2_2.index ⟨(i 0).val / 1000, ht⟩ (1 : Fin 2) * 7 ≤ (i 1).val
      ∧ (i 1).val < win2_2.index ⟨(i 0).val / 1000, ht⟩ (1 : Fin 2) * 7 + 7
    rw [o1]
    omega

/-- The array after the region: `whole` of the arrays as the region finds them. -/
theorem final (c : Dev nD) :
    (dat2 V c).arrAt 2 cfg2.N = whole (V c (Pipeline.arrRef spec2 0)) (V c (Pipeline.arrRef spec2 1)) :=
  (dat2 V c).arrAt_eq_of_cover 2 _ (fun t _ => flushed_eq V c t) cover

end Cert.KernelIdeal.ProductSecond

end
-- ==== Proof.Combine.lean ====
/-
  What the second combining region leaves in its output array, as one function of the arrays it finds.

  The region walks 25 blocks of 2000 rows of width 7. At block t it reads rows 2000·t … 2000·t + 1999 of the
  aggregate, of the transformed features and of the self-loop weights' column, and the one bias row whole, and writes
  the same rows of the output. So entry (r, c) of the output array ends at
      (agg[r, c] + h[r, c] · s[r, 0]) + b[0, c],
  whichever block holds row r; the 25 blocks cover all 50000 rows. No maximum is taken here.
-/
import proofs.«159464_j16063177687062_1_alg».proof.Proof.Gen.KernelIdeal.Frame
import proofs.«159464_j16063177687062_1_alg».proof.Proof.BodyAt

set_option maxRecDepth 16384

noncomputable section

namespace Cert.KernelIdeal.Combine

open Idealize.ShloMosaic Idealize.ShloMosaic.TcCoe Idealize.ShloMosaic.ValueIdx Idealize.SL.Sem
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

theorem origin : (![0, 0] : Fin 2 → Nat) = fun _ => 0 := funext fun a => by fin_cases a <;> rfl

/-- Row r of the weights' column, for an entry in row r of the narrow array. -/
abbrev rowOf (i : S50000x7.Idx) : S50000x1.Idx := fun a => match a with
  | ⟨0, _⟩ => ⟨(i 0).val, (i 0).isLt⟩
  | ⟨1, _⟩ => ⟨0, Nat.one_pos⟩
/-- Column c of the bias row, for an entry in column c of the narrow array. -/
abbrev colOf (i : S50000x7.Idx) : S1x7.Idx := fun a => match a with
  | ⟨0, _⟩ => ⟨0, Nat.one_pos⟩
  | ⟨1, _⟩ => ⟨(i 1).val, (i 1).isLt⟩

/-- The whole output array from the four whole input arrays. -/
def whole (agg h : S50000x7.Idx → Elt F .f32) (s : S50000x1.Idx → Elt F .f32) (b : S1x7.Idx → Elt F .f32) :
    S50000x7.Idx → Elt F .f32 :=
  fun i => FloatOps.addf (FloatOps.addf (agg i) (FloatOps.mulf (h i) (s (rowOf i)))) (b (colOf i))

/-- Block t of every row-blocked window is block row t, column block 0; the bias window stays at its one block. -/
theorem blocks : ∀ t : Fin cfg3.N,
      win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-! ## Each input block read where the output block's entry sits in the array -/

theorem read_agg (c : Dev nD) (t : Fin cfg3.N) (p : Fin 2000) (q : Fin 7) :
    iblk3 V c 0 t (ix2 p q) = V c (Pipeline.arrRef spec3 0) (((cfg3.win 4).blk t).view.emb (ix2 p q)) := by
  obtain ⟨a0, a1, -, -, -, -, -, -, o0, o1⟩ := blocks t
  show V c (Pipeline.arrRef spec3 0) (((cfg3.win 0).blk t).view.emb (ix2 p q)) = _
  refine congrArg (V c (Pipeline.arrRef spec3 0)) (funext fun a => Fin.ext ?_)
  match a with
  | ⟨0, _⟩ => show win3_0.index t (0 : Fin 2) * 2000 + 1 * p.val = win3_4.index t (0 : Fin 2) * 2000 + 1 * p.val; omega
  | ⟨1, _⟩ => show win3_0.index t (1 : Fin 2) * 7 + 1 * q.val = win3_4.index t (1 : Fin 2) * 7 + 1 * q.val; omega

theorem read_h (c : Dev nD) (t : Fin cfg3.N) (p : Fin 2000) (q : Fin 7) :
    iblk3 V c 1 t (ix2 p q) = V c (Pipeline.arrRef spec3 1) (((cfg3.win 4).blk t).view.emb (ix2 p q)) := by
  obtain ⟨-, -, b0, b1, -, -, -, -, o0, o1⟩ := blocks t
  show V c (Pipeline.arrRef spec3 1) (((cfg3.win 1).blk t).view.emb (ix2 p q)) = _
  refine congrArg (V c (Pipeline.arrRef spec3 1)) (funext fun a => Fin.ext ?_)
  match a with
  | ⟨0, _⟩ => show win3_1.index t (0 : Fin 2) * 2000 + 1 * p.val = win3_4.index t (0 : Fin 2) * 2000 + 1 * p.val; omega
  | ⟨1, _⟩ => show win3_1.index t (1 : Fin 2) * 7 + 1 * q.val = win3_4.index t (1 : Fin 2) * 7 + 1 * q.val; omega

theorem read_s (c : Dev nD) (t : Fin cfg3.N) (p : Fin 2000) (q : Fin 7) :
    iblk3 V c 2 t (ix2 p (0 : Fin 1))
      = V c (Pipeline.arrRef spec3 2) (rowOf (((cfg3.win 4).blk t).view.emb (ix2 p q))) := by
  obtain ⟨-, -, -, -, s0, s1, -, -, o0, o1⟩ := blocks t
  show V c (Pipeline.arrRef spec3 2) (((cfg3.win 2).blk t).view.emb (ix2 p (0 : Fin 1))) = _
  refine congrArg (V c (Pipeline.arrRef spec3 2)) (funext fun a => Fin.ext ?_)
  match a with
  | ⟨0, _⟩ => show win3_2.index t (0 : Fin 2) * 2000 + 1 * p.val = win3_4.index t (0 : Fin 2) * 2000 + 1 * p.val; omega
  | ⟨1, _⟩ => show win3_2.index t (1 : Fin 2) * 1 + 1 * 0 = 0; omega

theorem read_b (c : Dev nD) (t : Fin cfg3.N) (p : Fin 2000) (q : Fin 7) :
    iblk3 V c 3 t (ix2 (0 : Fin 1) q)
      = V c (Pipeline.arrRef spec3 3) (colOf (((cfg3.win 4).blk t).view.emb (ix2 p q))) := by
  obtain ⟨-, -, -, -, -, -, r0, r1, o0, o1⟩ := blocks t
  show V c (Pipeline.arrRef spec3 3) (((cfg3.win 3).blk t).view.emb (ix2 (0 : Fin 1) q)) = _
  refine congrArg (V c (Pipeline.arrRef spec3 3)) (funext fun a => Fin.ext ?_)
  match a with
  | ⟨0, _⟩ => show win3_3.index t (0 : Fin 2) * 1 + 1 * 0 = 0; omega
  | ⟨1, _⟩ => show win3_3.index t (1 : Fin 2) * 7 + 1 * q.val = win3_4.index t (1 : Fin 2) * 7 + 1 * q.val; omega

/-- What point t writes back is block t of `whole` of the arrays as the region finds them. -/
theorem flushed_eq (c : Dev nD) (t : Fin cfg3.N) :
    (dat3 V c).flushed 4 t = ((cfg3.win 4).blk t).view.read (Elt F)
      (whole (V c (Pipeline.arrRef spec3 0)) (V c (Pipeline.arrRef spec3 1)) (V c (Pipeline.arrRef spec3 2)) (V c (Pipeline.arrRef spec3 3))) := by
  show (cfg3.win 4).cut (grid3.coords t) ((dat3 V c).after 4 t) = _
  rw [after3_4]
  unfold out3_4
  rw [View.canon_unit_zero origin]
  simp only [View.ld_unit_zero (S := S2000x7) origin, View.ld_unit_zero (S := S2000x1) origin, View.ld_unit_zero (S := S1x7) origin]
  funext j
  show k3_pay1 (iblk3 V c 0 t) (iblk3 V c 1 t) (iblk3 V c 2 t) (iblk3 V c 3 t) j
      = whole (V c (Pipeline.arrRef spec3 0)) (V c (Pipeline.arrRef spec3 1)) (V c (Pipeline.arrRef spec3 2)) (V c (Pipeline.arrRef spec3 3))
          (((cfg3.win 4).blk t).view.emb j)
  obtain ⟨p, q, rfl⟩ : ∃ (p : Fin 2000) (q : Fin 7), j = ix2 p q := ⟨j 0, j 1, eq_ix2 j⟩
  refine (BodyAt.combine_at (iblk3 V c 0 t) (iblk3 V c 1 t) (iblk3 V c 2 t) (iblk3 V c 3 t) p q).trans ?_
  rw [read_agg V c t p q, read_h V c t p q, read_s V c t p q, read_b V c t p q]
  rfl

/-! ## The 25 blocks cover the array: row r sits in block r / 2000 -/

theorem mem_blk (t : Fin cfg3.N) (i : S50000x7.Idx) :
    i ∈ ((cfg3.win 4).blk t).view.set ↔ ∀ a : Fin 2, win3_4.index t a * S2000x7.size a ≤ (i a).val
      ∧ (i a).val < win3_4.index t a * S2000x7.size a + S2000x7.size a := by
  show i ∈ ((View.whole main_v59).slice (win3_4.rect t)).set ↔ _
  rw [View.set_slice_whole, Rect.mem_set_unit]
  exact Iff.rfl

theorem cover (i : S50000x7.Idx) :
    ∃ t : Fin cfg3.N, (cfg3.win 4).flush t = true ∧ i ∈ ((cfg3.win 4).blk t).view.set := by
  have hi0 : (i 0).val < 50000 := (i 0).isLt
  have hi1 : (i 1).val < 7 := (i 1).isLt
  have hN : cfg3.N = 25 := N_3
  have ht : (i 0).val / 2000 < cfg3.N := by rw [hN]; omega
  refine ⟨⟨(i 0).val / 2000, ht⟩, flush3_4 _, ?_⟩
  obtain ⟨-, -, -, -, -, -, -, -, o0, o1⟩ := blocks ⟨(i 0).val / 2000, ht⟩
  rw [mem_blk]
  intro a
  match a with
  | ⟨0, _⟩ =>
    show win3_4.index ⟨(i 0).val / 2000, ht⟩ (0 : Fin 2) * 2000 ≤ (i 0).val
      ∧ (i 0).val < win3_4.index ⟨(i 0).val / 2000, ht⟩ (0 : Fin 2) * 2000 + 2000
    rw [o0]
    show (i 0).val / 2000 * 2000 ≤ (i 0).val ∧ (i 0).val < (i 0).val / 2000 * 2000 + 2000
    omega
  | ⟨1, _⟩ =>
    show win3_4.index ⟨(i 0).val / 2000, ht⟩ (1 : Fin 2) * 7 ≤ (i 1).val
      ∧ (i 1).val < win3_4.index ⟨(i 0).val / 2000, ht⟩ (1 : Fin 2) * 7 + 7
    rw [o1]
    omega

/-- The array after the region: `whole` of the arrays as the region finds them. -/
theorem final (c : Dev nD) :
    (dat3 V c).arrAt 4 cfg3.N
      = whole (V c (Pipeline.arrRef spec3 0)) (V c (Pipeline.arrRef spec3 1)) (V c (Pipeline.arrRef spec3 2)) (V c (Pipeline.arrRef spec3 3)) :=
  (dat3 V c).arrAt_eq_of_cover 4 _ (fun t _ => flushed_eq V c t) cover

end Cert.KernelIdeal.Combine

end
-- ==== Proof.Boundary2.lean ====
/-
  The kernel program's buffers around its last two regions, as the reference's stages of the same arguments.

  The third region leaves h1 · W2 in its output array, the reference's second product entry by entry. The host then
  gathers its rows at the edges' sources, scales each by its edge weight and adds them up at the edges' targets: the
  reference's second aggregate, operation for operation. The last region leaves (agg + h · s) + b2 in the result array,
  which is the reference's result entry by entry: the same sums in the same grouping, the bias row the reference's b2
  read at the entry's column.
-/
import proofs.«159464_j16063177687062_1_alg».proof.Proof.Boundary1
import proofs.«159464_j16063177687062_1_alg».proof.Proof.ProductSecond
import proofs.«159464_j16063177687062_1_alg».proof.Proof.Combine
import Idealize.ShloMosaic.Lib.Pipeline.Value

set_option maxRecDepth 16384

noncomputable section

namespace Cert.KernelIdeal.Boundary

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-! ## After the third region -/

/-- The third region's output is the reference's product h1 · W2: entry by entry the same sum over the 256 contracted
    entries, the left operand the activation on both sides, the right the launched argument. -/
theorem W5_v44 (c : Dev nD) :
    W5 m ρ c (Proc.devRef .tc main_v44)
      = Cert.ReferenceIdeal.Read.val_main_v49 (F := Ideal) (x0 m c) (x1 m c) (x2 m c) (x3 m c) (x4 m c) := by
  refine (W5_arr m ρ c 2).trans ?_
  rw [ProductSecond.final]
  have e0 : V4 m ρ c (Pipeline.arrRef spec2 0) = Cert.ReferenceIdeal.Read.val_main_v48 (F := Ideal) (x0 m c) (x1 m c) (x2 m c) (x3 m c) := W4_v43 m ρ c
  have e1 : V4 m ρ c (Pipeline.arrRef spec2 1) = x4 m c := W4_arg4 m ρ c
  rw [e0, e1]
  funext i
  rw [Cert.ReferenceIdeal.Read.val_main_v49_apply]
  rfl

theorem W5_v1 (c : Dev nD) : W5 m ρ c (Proc.devRef .tc main_v1) = Cert.ReferenceIdeal.Read.val_main_v1 (F := Ideal) (x1 m c) :=
  (W5_of_ne m ρ c main_v1 (by decide)).trans (W4_v1 m ρ c)
theorem W5_v3 (c : Dev nD) : W5 m ρ c (Proc.devRef .tc main_v3) = Cert.ReferenceIdeal.Read.val_main_v3 (F := Ideal) (x1 m c) :=
  (W5_of_ne m ρ c main_v3 (by decide)).trans (W4_v3 m ρ c)
theorem W5_v25 (c : Dev nD) : W5 m ρ c (Proc.devRef .tc main_v25) = Cert.ReferenceIdeal.Read.val_main_v25 (F := Ideal) (x1 m c) :=
  (W5_of_ne m ρ c main_v25 (by decide)).trans (W4_v25 m ρ c)
theorem W5_v27 (c : Dev nD) : W5 m ρ c (Proc.devRef .tc main_v27) = Cert.ReferenceIdeal.Read.val_main_v27 (F := Ideal) (x1 m c) :=
  (W5_of_ne m ρ c main_v27 (by decide)).trans (W4_v27 m ρ c)
theorem W5_arg5 (c : Dev nD) : W5 m ρ c (Proc.devRef .tc main_arg5) = x5 m c :=
  (W5_of_ne m ρ c main_arg5 (by decide)).trans (W4_arg5 m ρ c)

/-! ## After the last host stretch -/

set_option maxHeartbeats 4000000 in
/-- The second aggregate: the rows of h1 · W2 gathered at the sources, weighted, summed at the targets. -/
theorem W6_v57 (c : Dev nD) :
    W6 m ρ c (Proc.devRef .tc main_v57)
      = Cert.ReferenceIdeal.Read.val_main_v62 (F := Ideal) (x0 m c) (x1 m c) (x2 m c) (x3 m c) (x4 m c) := by
  show StableHlo.after hostOps3 (W5 m ρ c) (Proc.devRef .tc main_v57) = _
  after_results_simp
  rw [W5_v1, W5_v3, W5_v25, W5_v44]
  rfl

theorem W6_v44 (c : Dev nD) :
    W6 m ρ c (Proc.devRef .tc main_v44)
      = Cert.ReferenceIdeal.Read.val_main_v49 (F := Ideal) (x0 m c) (x1 m c) (x2 m c) (x3 m c) (x4 m c) := by
  refine Eq.trans ?_ (W5_v44 m ρ c)
  show StableHlo.after hostOps3 (W5 m ρ c) (Proc.devRef .tc main_v44) = W5 m ρ c (Proc.devRef .tc main_v44)
  untouched_by hostOps3
theorem W6_v27 (c : Dev nD) : W6 m ρ c (Proc.devRef .tc main_v27) = Cert.ReferenceIdeal.Read.val_main_v27 (F := Ideal) (x1 m c) := by
  refine Eq.trans ?_ (W5_v27 m ρ c)
  show StableHlo.after hostOps3 (W5 m ρ c) (Proc.devRef .tc main_v27) = W5 m ρ c (Proc.devRef .tc main_v27)
  untouched_by hostOps3

/-- The second bias laid out as one row. -/
theorem W6_v58 (c : Dev nD) :
    W6 m ρ c (Proc.devRef .tc main_v58) = shapeCast S1x7 (x5 m c) shapeCasts_S7_S1x7 := by
  show StableHlo.after hostOps3 (W5 m ρ c) (Proc.devRef .tc main_v58) = _
  after_results
  rw [W5_arg5]
  rfl

/-- The bias row read at an entry's column is the bias at that column. -/
theorem bias_second_at (b : (⟨S7, .f32⟩ : BufTy).Contents (Elt Ideal)) (i : S50000x7.Idx) :
    shapeCast S1x7 b shapeCasts_S7_S1x7 (Combine.colOf i)
      = b (Cert.ReferenceIdeal.Read.idx_main_v66 (Cert.ReferenceIdeal.Read.idx_main_v67 i)) := by
  refine shapeCast_apply b shapeCasts_S7_S1x7 _ _ ?_
  rw [Shape.rowMajor_val_one, Shape.rowMajor_val_two]
  show (i 1).val = 0 * 7 + (i 1).val
  omega

/-! ## After the last region -/

/-- The result array is the reference's result (agg + h · s) + b2. -/
theorem W7_v59 (c : Dev nD) :
    W7 m ρ c (Proc.devRef .tc main_v59)
      = Cert.ReferenceIdeal.Read.val_main_v68 (F := Ideal) (x0 m c) (x1 m c) (x2 m c) (x3 m c) (x4 m c) (x5 m c) := by
  refine (W7_arr m ρ c 4).trans ?_
  rw [Combine.final]
  have e0 : V6 m ρ c (Pipeline.arrRef spec3 0) = Cert.ReferenceIdeal.Read.val_main_v62 (F := Ideal) (x0 m c) (x1 m c) (x2 m c) (x3 m c) (x4 m c) := W6_v57 m ρ c
  have e1 : V6 m ρ c (Pipeline.arrRef spec3 1) = Cert.ReferenceIdeal.Read.val_main_v49 (F := Ideal) (x0 m c) (x1 m c) (x2 m c) (x3 m c) (x4 m c) := W6_v44 m ρ c
  have e2 : V6 m ρ c (Pipeline.arrRef spec3 2) = Cert.ReferenceIdeal.Read.val_main_v27 (F := Ideal) (x1 m c) := W6_v27 m ρ c
  have e3 : V6 m ρ c (Pipeline.arrRef spec3 3) = shapeCast S1x7 (x5 m c) shapeCasts_S7_S1x7 := W6_v58 m ρ c
  rw [e0, e1, e2, e3]
  funext i
  rw [Cert.ReferenceIdeal.Read.val_main_v68_apply, Cert.ReferenceIdeal.Read.val_main_v65_apply, Cert.ReferenceIdeal.Read.val_main_v64_apply, Cert.ReferenceIdeal.Read.val_main_v63_apply,
    Cert.ReferenceIdeal.Read.val_main_v67_apply, Cert.ReferenceIdeal.Read.val_main_v66_apply]
  unfold Combine.whole
  rw [bias_second_at]
  rfl

end Cert.KernelIdeal.Boundary

end
-- ==== Proof.lean ====
/-
  A two-layer graph convolution, kernel against reference, over the extended reals.

  Both programs compute, from node features x, an edge list, and two weight matrices with their biases,
      h1  = max((A(x · W1) + (x · W1) · s) + b1, 0),        out = (A(h1 · W2) + (h1 · W2) · s) + b2,
  where deg counts the edges into each node plus one, dinv = rsqrt(deg), s = dinv · dinv is each node's self-loop
  weight, and A(h) gathers the rows of h at the edges' sources, scales each by dinv[source] · dinv[target] and sums them
  at the edges' targets. The kernel program runs the two products and the two combining steps as four blocked regions
  and leaves the degree, the weights and the two aggregations to the host; the reference runs everything on the host.

  Over the extended reals the two are one function of the arguments, by no algebraic law beyond reading both sides
  entry by entry: a product accumulated into zero over a whole contracted axis is the reference's sum over that axis
  (narrowing the operands changes nothing here), each combining step adds and multiplies the same entries in the
  same grouping, a bias laid out as one row reads the bias at the entry's column however the row was made, and the
  host's operations between the regions are the reference's own, applied to equal values. No finiteness of the inputs
  is used. The kernel program's run is its frame's launch with the result array also read; the reference's run and
  its stages are its own read-back.
-/
import proofs.«159464_j16063177687062_1_alg».proof.Defs
import proofs.«159464_j16063177687062_1_alg».proof.Proof.Gen.Kernel
import proofs.«159464_j16063177687062_1_alg».proof.Proof.Gen.Kernel.Frame
import proofs.«159464_j16063177687062_1_alg».proof.Proof.Gen.KernelIdeal
import proofs.«159464_j16063177687062_1_alg».proof.Proof.Gen.KernelIdeal.Frame
import proofs.«159464_j16063177687062_1_alg».proof.Proof.Gen.ReferenceIdeal
import proofs.«159464_j16063177687062_1_alg».proof.Proof.Gen.ReferenceIdeal.Run
import proofs.«159464_j16063177687062_1_alg».proof.Proof.Gen.ReferenceIdeal.Read
import proofs.«159464_j16063177687062_1_alg».proof.Proof.Gen.Pre_finite_inputs
import proofs.«159464_j16063177687062_1_alg».proof.Proof.KernelIdealRun
import proofs.«159464_j16063177687062_1_alg».proof.Proof.Boundary2
import Idealize.ShloMosaic.Adequacy
import Idealize.ShloMosaic.Init

noncomputable section

namespace Cert.Proof

open Idealize.ShloMosaic Idealize.SL.Sem

/-- The kernel program at the word level runs, nothing faulting, and leaves its arguments as launched. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- So does the reference: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the reference's last stage of those arguments in
    their result arrays: the kernel program by the chain of its boundaries, the reference by its own read-back. -/
theorem algebraic : Cert.algebraic_KernelIdeal_ReferenceIdeal := by
  intro m ρ m' ρ' _ hagree
  refine ⟨fun c => Cert.ReferenceIdeal.Read.val_main_v68 (F := Ideal) (Cert.KernelIdeal.Boundary.x0 m c)
    (Cert.KernelIdeal.Boundary.x1 m c) (Cert.KernelIdeal.Boundary.x2 m c) (Cert.KernelIdeal.Boundary.x3 m c)
    (Cert.KernelIdeal.Boundary.x4 m c) (Cert.KernelIdeal.Boundary.x5 m c), ?_, ?_⟩
  · exact (θ_run Cert.KernelIdeal.defs _ _).mono
      (fun _ h c => ⟨(h c).1.trans (Cert.KernelIdeal.Boundary.W7_v59 m ρ c), (h c).2⟩)
      (Cert.KernelIdeal.Gen.run_named m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v68_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
